-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x500000 : Shape := ⟨2, ![2, 500000]⟩
abbrev S256x256 : Shape := ⟨2, ![256, 256]⟩
abbrev S256 : Shape := ⟨1, ![256]⟩
abbrev S1x256 : Shape := ⟨2, ![1, 256]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_
  bcast_S_S2x500000 : S_.BroadcastsInDim S2x500000 (![] : Fin 0 → Fin S2x500000.rank)
  reducesTo_S2x500000_S_d0_1 : S2x500000.ReducesTo [0, 1] S_

variable [Facts]

def fn_part3 {F : FTy → Type} [FloatOps F] (main_v45 : IVec S_ 1) (main_v50 : IVec S2x500000 1) : IVec S_ 1 :=
  let main_c_19 : IVec S_ 1 := constantI S_ 1 1#1
  let main_v51 : IVec S_ 1 := (fun x v => Host.reduce IntOp.andi x v reducesTo_S2x500000_S_d0_1 h_S_) main_v50 main_c_19
  let main_v52 : IVec S_ 1 := andi main_v45 main_v51
  main_v52

def fn_part2 {F : FTy → Type} [FloatOps F] (main_arg2 : IVec S2x500000 32) (main_arg3 : IVec S2x500000 32) (main_arg9 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_c_14 : IVec S_ 32 := constantI S_ 32 4294867296#32
  let main_v39 : IVec S2x500000 32 := broadcastInDim S2x500000 ![] bcast_S_S2x500000 main_c_14
  let main_v40 : IVec S2x500000 1 := cmpi .sge main_arg2 main_v39
  let main_c_15 : IVec S_ 32 := constantI S_ 32 100000#32
  let main_v41 : IVec S2x500000 32 := broadcastInDim S2x500000 ![] bcast_S_S2x500000 main_c_15
  let main_v42 : IVec S2x500000 1 := cmpi .slt main_arg2 main_v41
  let main_v43 : IVec S2x500000 1 := andi main_v40 main_v42
  let main_c_16 : IVec S_ 1 := constantI S_ 1 1#1
  let main_v44 : IVec S_ 1 := (fun x v => Host.reduce IntOp.andi x v reducesTo_S2x500000_S_d0_1 h_S_) main_v43 main_c_16
  let main_v45 : IVec S_ 1 := andi main_v38 main_v44
  let main_c_17 : IVec S_ 32 := constantI S_ 32 4294867296#32
  let main_v46 : IVec S2x500000 32 := broadcastInDim S2x500000 ![] bcast_S_S2x500000 main_c_17
  let main_v47 : IVec S2x500000 1 := cmpi .sge main_arg3 main_v46
  let main_c_18 : IVec S_ 32 := constantI S_ 32 100000#32
  let main_v48 : IVec S2x500000 32 := broadcastInDim S2x500000 ![] bcast_S_S2x500000 main_c_18
  let main_v49 : IVec S2x500000 1 := cmpi .slt main_arg3 main_v48
  let main_v50 : IVec S2x500000 1 := andi main_v47 main_v49
  fn_part3 (F := F) main_v45 main_v50

def fn_part1 {F : FTy → Type} [FloatOps F] (main_arg2 : IVec S2x500000 32) (main_arg3 : IVec S2x500000 32) (main_arg6 : FVec F S256x256 .f32) (main_arg7 : FVec F S256 .f32) (main_arg8 : FVec F S1x256 .f32) (main_arg9 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S1x256 .f32 := Host.absf main_arg8
  let main_cst_10 : FVec F S_ .f32 := constant S_ .f32 0x7F800000#32
  let main_v30 : FVec F S1x256 .f32 := broadcastInDim S1x256 ![] bcast_S_S1x256 main_cst_10
  let main_v31 : IVec S1x256 1 := cmpf .olt main_v29 main_v30
  let main_c_11 : IVec S_ 1 := constantI S_ 1 1#1
  let main_v32 : IVec S_ 1 := (fun x v => Host.reduce IntOp.andi x v reducesTo_S1x256_S_d0_1 h_S_) main_v31 main_c_11
  let main_v33 : IVec S_ 1 := andi main_v28 main_v32
  fn_part2 (F := F) main_arg2 main_arg3 main_arg9 main_v33

def fn {F : FTy → Type} [FloatOps F] (main_arg0 : FVec F S100000x256 .f32) (main_arg1 : FVec F S100000x256 .f32) (main_arg2 : IVec S2x500000 32) (main_arg3 : IVec S2x500000 32) (main_arg4 : FVec F S256x256 .f32) (main_arg5 : FVec F S256 .f32) (main_arg6 : FVec F S256x256 .f32) (main_arg7 : FVec F S256 .f32) (main_arg8 : FVec F S1x256 .f32) (main_arg9 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg2 main_arg3 main_arg6 main_arg7 main_arg8 main_arg9 main_v13 main_v16
-- ==== Kernel.lean ====
abbrev S100000x256 : Shape := ⟨2, ![100000, 256]⟩
abbrev S2x500000 : Shape := ⟨2, ![2, 500000]⟩
abbrev S256x256 : Shape := ⟨2, ![256, 256]⟩
abbrev S256 : Shape := ⟨1, ![256]⟩
abbrev S1x256 : Shape := ⟨2, ![1, 256]⟩
abbrev S1 : Shape := ⟨1, ![1]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S1x1 : Shape := ⟨2, ![1, 1]⟩
abbrev S500000x256 : Shape := ⟨2, ![500000, 256]⟩
abbrev S512x256 : Shape := ⟨2, ![512, 256]⟩
abbrev S256x1 : Shape := ⟨2, ![256, 1]⟩
abbrev S10000x256 : Shape := ⟨2, ![10000, 256]⟩
abbrev S10000x1 : Shape := ⟨2, ![10000, 1]⟩
abbrev S10000x512 : Shape := ⟨2, ![10000, 512]⟩
abbrev S1000000x1 : Shape := ⟨2, ![1000000, 1]⟩

abbrev nBuf : Space → Nat
  | .hbm => 126
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S100000x256, .f32⟩
  | .hbm, ⟨2, _⟩ => ⟨S2x500000, .i32⟩
  | .hbm, ⟨3, _⟩ => ⟨S2x500000, .i32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1x256, .f32⟩
  | .hbm, ⟨9, _⟩ => ⟨S1, .f32⟩
  | .hbm, ⟨10, _⟩ => ⟨S1x500000, .i32⟩
  | .hbm, ⟨11, _⟩ => ⟨S500000, .i32⟩
  | .hbm, ⟨12, _⟩ => ⟨S1x500000, .i32⟩
  | .hbm, ⟨13, _⟩ => ⟨S500000, .i32⟩
  | .hbm, ⟨14, _⟩ => ⟨S1x500000, .i32⟩
  | .hbm, ⟨15, _⟩ => ⟨S500000, .i32⟩
  | .hbm, ⟨16, _⟩ => ⟨S1x500000, .i32⟩
  | .hbm, ⟨17, _⟩ => ⟨S500000, .i32⟩
  | .hbm, ⟨18, _⟩ => ⟨S_, .i32⟩
  | .hbm, ⟨19, _⟩ => ⟨S500000, .i32⟩
  | .hbm, ⟨20, _⟩ => ⟨S500000, .i1⟩
  | .hbm, ⟨21, _⟩ => ⟨S_, .i32⟩
  | .hbm, ⟨22, _⟩ => ⟨S500000, .i32⟩
  | .hbm, ⟨23, _⟩ => ⟨S500000, .i32⟩
  | .hbm, ⟨24, _⟩ => ⟨S500000, .i32⟩
  | .hbm, ⟨25, _⟩ => ⟨S500000x1, .i32⟩
  | .hbm, ⟨26, _⟩ => ⟨S1, .i32⟩
  | .hbm, ⟨27, _⟩ => ⟨S_, .i32⟩
  | .hbm, ⟨28, _⟩ => ⟨S500000x1, .i32⟩
  | .hbm, ⟨29, _⟩ => ⟨S500000x1, .i1⟩
  | .hbm, ⟨30, _⟩ => ⟨S1x1, .i32⟩
  | .hbm, ⟨31, _⟩ => ⟨S500000x1, .i32⟩
  | .hbm, ⟨32, _⟩ => ⟨S500000x1, .i1⟩
  | .hbm, ⟨33, _⟩ => ⟨S500000x1, .i1⟩
  | .hbm, ⟨34, _⟩ => ⟨S_, .i1⟩
  | .hbm, ⟨35, _⟩ => ⟨S500000, .i1⟩
  | .hbm, ⟨36, _⟩ => ⟨S500000x256, .f32⟩
  | .hbm, ⟨37, _⟩ => ⟨S500000x256, .i1⟩
  | .hbm, ⟨38, _⟩ => ⟨S_, .f32⟩
  | .hbm, ⟨39, _⟩ => ⟨S500000x256, .f32⟩
  | .hbm, ⟨40, _⟩ => ⟨S500000x256, .f32⟩
  | .hbm, ⟨41, _⟩ => ⟨S500000x256, .bf16⟩
  | .hbm, ⟨42, _⟩ => ⟨S_, .i32⟩
  | .hbm, ⟨43, _⟩ => ⟨S500000, .i32⟩
  | .hbm, ⟨44, _⟩ => ⟨S500000, .i1⟩
  | .hbm, ⟨45, _⟩ => ⟨S_, .i32⟩
  | .hbm, ⟨46, _⟩ => ⟨S500000, .i32⟩
  | .hbm, ⟨47, _⟩ => ⟨S500000, .i32⟩
  | .hbm, ⟨48, _⟩ => ⟨S500000, .i32⟩
  | .hbm, ⟨49, _⟩ => ⟨S500000x1, .i32⟩
  | .hbm, ⟨50, _⟩ => ⟨S1, .i32⟩
  | .hbm, ⟨51, _⟩ => ⟨S_, .i32⟩
  | .hbm, ⟨52, _⟩ => ⟨S500000x1, .i32⟩
  | .hbm, ⟨53, _⟩ => ⟨S500000x1, .i1⟩
  | .hbm, ⟨54, _⟩ => ⟨S1x1, .i32⟩
  | .hbm, ⟨55, _⟩ => ⟨S500000x1, .i32⟩
  | .hbm, ⟨56, _⟩ => ⟨S500000x1, .i1⟩
  | .hbm, ⟨57, _⟩ => ⟨S500000x1, .i1⟩
  | .hbm, ⟨58, _⟩ => ⟨S_, .i1⟩
  | .hbm, ⟨59, _⟩ => ⟨S500000, .i1⟩
  | .hbm, ⟨60, _⟩ => ⟨S500000x256, .f32⟩
  | .hbm, ⟨61, _⟩ => ⟨S500000x256, .i1⟩
  | .hbm, ⟨62, _⟩ => ⟨S_, .f32⟩
  | .hbm, ⟨63, _⟩ => ⟨S500000x256, .f32⟩
  | .hbm, ⟨64, _⟩ => ⟨S500000x256, .f32⟩
  | .hbm, ⟨65, _⟩ => ⟨S500000x256, .bf16⟩
  | .hbm, ⟨66, _⟩ => ⟨S_, .i32⟩
  | .hbm, ⟨67, _⟩ => ⟨S500000, .i32⟩
  | .hbm, ⟨68, _⟩ => ⟨S500000, .i1⟩
  | .hbm, ⟨69, _⟩ => ⟨S_, .i32⟩
  | .hbm, ⟨70, _⟩ => ⟨S500000, .i32⟩
  | .hbm, ⟨71, _⟩ => ⟨S500000, .i32⟩
  | .hbm, ⟨72, _⟩ => ⟨S500000, .i32⟩
  | .hbm, ⟨73, _⟩ => ⟨S500000x1, .i32⟩
  | .hbm, ⟨74, _⟩ => ⟨S1, .i32⟩
  | .hbm, ⟨75, _⟩ => ⟨S_, .i32⟩
  | .hbm, ⟨76, _⟩ => ⟨S500000x1, .i32⟩
  | .hbm, ⟨77, _⟩ => ⟨S500000x1, .i1⟩
  | .hbm, ⟨78, _⟩ => ⟨S1x1, .i32⟩
  | .hbm, ⟨79, _⟩ => ⟨S500000x1, .i32⟩
  | .hbm, ⟨80, _⟩ => ⟨S500000x1, .i1⟩
  | .hbm, ⟨81, _⟩ => ⟨S500000x1, .i1⟩
  | .hbm, ⟨82, _⟩ => ⟨S_, .i1⟩
  | .hbm, ⟨83, _⟩ => ⟨S500000, .i1⟩
  | .hbm, ⟨84, _⟩ => ⟨S500000x256, .f32⟩
  | .hbm, ⟨85, _⟩ => ⟨S500000x256, .i1⟩
  | .hbm, ⟨86, _⟩ => ⟨S_, .f32⟩
  | .hbm, ⟨87, _⟩ => ⟨S500000x256, .f32⟩
  | .hbm, ⟨88, _⟩ => ⟨S500000x256, .f32⟩
  | .hbm, ⟨89, _⟩ => ⟨S500000x256, .bf16⟩
  | .hbm, ⟨90, _⟩ => ⟨S_, .i32⟩
  | .hbm, ⟨91, _⟩ => ⟨S500000, .i32⟩
  | .hbm, ⟨92, _⟩ => ⟨S500000, .i1⟩
  | .hbm, ⟨93, _⟩ => ⟨S_, .i32⟩
  | .hbm, ⟨94, _⟩ => ⟨S500000, .i32⟩
  | .hbm, ⟨95, _⟩ => ⟨S500000, .i32⟩
  | .hbm, ⟨96, _⟩ => ⟨S500000, .i32⟩
  | .hbm, ⟨97, _⟩ => ⟨S500000x1, .i32⟩
  | .hbm, ⟨98, _⟩ => ⟨S1, .i32⟩
  | .hbm, ⟨99, _⟩ => ⟨S_, .i32⟩
  | .hbm, ⟨100, _⟩ => ⟨S500000x1, .i32⟩
  | .hbm, ⟨101, _⟩ => ⟨S500000x1, .i1⟩
  | .hbm, ⟨102, _⟩ => ⟨S1x1, .i32⟩
  | .hbm, ⟨103, _⟩ => ⟨S500000x1, .i32⟩
  | .hbm, ⟨104, _⟩ => ⟨S500000x1, .i1⟩
  | .hbm, ⟨105, _⟩ => ⟨S500000x1, .i1⟩
  | .hbm, ⟨106, _⟩ => ⟨S_, .i1⟩
  | .hbm, ⟨107, _⟩ => ⟨S500000, .i1⟩
  | .hbm, ⟨108, _⟩ => ⟨S500000x256, .f32⟩
  | .hbm, ⟨109, _⟩ => ⟨S500000x256, .i1⟩
  | .hbm, ⟨110, _⟩ => ⟨S_, .f32⟩
  | .hbm, ⟨111, _⟩ => ⟨S500000x256, .f32⟩
  | .hbm, ⟨112, _⟩ => ⟨S500000x256, .f32⟩
  | .hbm, ⟨113, _⟩ => ⟨S500000x256, .bf16⟩
  | .hbm, ⟨114, _⟩ => ⟨S256x256, .f32⟩
  | .hbm, ⟨115, _⟩ => ⟨S256x256, .f32⟩
  | .hbm, ⟨116, _⟩ => ⟨S512x256, .f32⟩
  | .hbm, ⟨117, _⟩ => ⟨S512x256, .bf16⟩
  | .hbm, ⟨118, _⟩ => ⟨S256x1, .f32⟩
  | .hbm, ⟨119, _⟩ => ⟨S256x1, .bf16⟩
  | .hbm, ⟨120, _⟩ => ⟨S256, .f32⟩
  | .hbm, ⟨121, _⟩ => ⟨S1x256, .f32⟩
  | .hbm, ⟨122, _⟩ => ⟨S1x1, .f32⟩
  | .hbm, ⟨123, _⟩ => ⟨S500000x1, .f32⟩
  | .hbm, ⟨124, _⟩ => ⟨S500000x1, .f32⟩
  | .hbm, ⟨125, _⟩ => ⟨S1000000x1, .f32⟩
  | .local _ .vmem, ⟨0, _⟩ => ⟨S10000x256, .bf16⟩
  | .local _ .vmem, ⟨1, _⟩ => ⟨S10000x256, .bf16⟩
  | .local _ .vmem, ⟨2, _⟩ => ⟨S10000x256, .bf16⟩
  | .local _ .vmem, ⟨3, _⟩ => ⟨S10000x256, .bf16⟩
  | .local _ .vmem, ⟨4, _⟩ => ⟨S512x256, .bf16⟩
  | .local _ .vmem, ⟨5, _⟩ => ⟨S256x1, .bf16⟩
  | .local _ .vmem, ⟨6, _⟩ => ⟨S1x256, .f32⟩
  | .local _ .vmem, ⟨7, _⟩ => ⟨S1x1, .f32⟩
  | .local _ .vmem, ⟨8, _⟩ => ⟨S10000x1, .f32⟩
  | .local _ .vmem, ⟨9, _⟩ => ⟨S10000x1, .f32⟩
  | .local _ .vmem, ⟨10, _⟩ => ⟨S10000x256, .bf16⟩
  | .local _ .vmem, ⟨11, _⟩ => ⟨S10000x256, .bf16⟩
  | .local _ .vmem, ⟨12, _⟩ => ⟨S10000x256, .bf16⟩
  | .local _ .vmem, ⟨13, _⟩ => ⟨S10000x256, .bf16⟩
  | .local _ .vmem, ⟨14, _⟩ => ⟨S512x256, .bf16⟩
  | .local _ .vmem, ⟨15, _⟩ => ⟨S256x1, .bf16⟩
  | .local _ .vmem, ⟨16, _⟩ => ⟨S1x256, .f32⟩
  | .local _ .vmem, ⟨17, _⟩ => ⟨S1x1, .f32⟩
  | .local _ .vmem, ⟨18, _⟩ => ⟨S10000x1, .f32⟩
  | .local _ .vmem, ⟨19, _⟩ => ⟨S10000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v8 : Ref sig .tc := ⟨.hbm, 40, rfl⟩
abbrev main_v9 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v10 : Ref sig .tc := ⟨.hbm, 64, rfl⟩
abbrev main_v11 : Ref sig .tc := ⟨.hbm, 65, rfl⟩
abbrev main_call2_c : Ref sig .tc := ⟨.hbm, 66, rfl⟩
abbrev main_call2_v0 : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_c_1 : Ref sig .tc := ⟨.hbm, 74, rfl⟩
abbrev main_call2_c_2 : Ref sig .tc := ⟨.hbm, 75, rfl⟩
abbrev main_call2_v6 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_c_3 : Ref sig .tc := ⟨.hbm, 82, rfl⟩
abbrev main_call2_v12 : Ref sig .tc := ⟨.hbm, 83, rfl⟩
abbrev main_call2_v13 : Ref sig .tc := ⟨.hbm, 84, rfl⟩
abbrev main_call2_v14 : Ref sig .tc := ⟨.hbm, 85, rfl⟩
abbrev main_call2_cst : Ref sig .tc := ⟨.hbm, 86, rfl⟩
abbrev main_call2_v15 : Ref sig .tc := ⟨.hbm, 87, rfl⟩
abbrev main_v12 : Ref sig .tc := ⟨.hbm, 88, rfl⟩
abbrev main_v13 : Ref sig .tc := ⟨.hbm, 89, rfl⟩
abbrev main_call3_c : Ref sig .tc := ⟨.hbm, 90, rfl⟩
abbrev main_call3_v0 : Ref sig .tc := ⟨.hbm, 91, rfl⟩
abbrev main_call3_v1 : Ref sig .tc := ⟨.hbm, 92, rfl⟩
abbrev main_call3_c_0 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_v5 : Ref sig .tc := ⟨.hbm, 97, rfl⟩
abbrev main_call3_c_1 : Ref sig .tc := ⟨.hbm, 98, rfl⟩
abbrev main_call3_c_2 : Ref sig .tc := ⟨.hbm, 99, rfl⟩
abbrev main_call3_v6 : Ref sig .tc := ⟨.hbm, 100, rfl⟩
abbrev main_call3_v7 : Ref sig .tc := ⟨.hbm, 101, rfl⟩
abbrev main_call3_v8 : Ref sig .tc := ⟨.hbm, 102, rfl⟩
abbrev main_call3_v9 : Ref sig .tc := ⟨.hbm, 103, rfl⟩
abbrev main_call3_v10 : Ref sig .tc := ⟨.hbm, 104, rfl⟩
abbrev main_call3_v11 : Ref sig .tc := ⟨.hbm, 105, rfl⟩
abbrev main_call3_c_3 : Ref sig .tc := ⟨.hbm, 106, rfl⟩
abbrev main_call3_v12 : Ref sig .tc := ⟨.hbm, 107, rfl⟩
abbrev main_call3_v13 : Ref sig .tc := ⟨.hbm, 108, rfl⟩
abbrev main_call3_v14 : Ref sig .tc := ⟨.hbm, 109, rfl⟩
abbrev main_call3_cst : Ref sig .tc := ⟨.hbm, 110, rfl⟩
abbrev main_call3_v15 : Ref sig .tc := ⟨.hbm, 111, rfl⟩
abbrev main_v14 : Ref sig .tc := ⟨.hbm, 112, rfl⟩
abbrev main_v15 : Ref sig .tc := ⟨.hbm, 113, rfl⟩
abbrev main_v16 : Ref sig .tc := ⟨.hbm, 114, rfl⟩
abbrev main_v17 : Ref sig .tc := ⟨.hbm, 115, rfl⟩
abbrev main_v18 : Ref sig .tc := ⟨.hbm, 116, rfl⟩
abbrev main_v19 : Ref sig .tc := ⟨.hbm, 117, rfl⟩
abbrev main_v20 : Ref sig .tc := ⟨.hbm, 118, rfl⟩
abbrev main_v21 : Ref sig .tc := ⟨.hbm, 119, rfl⟩
abbrev main_v22 : Ref sig .tc := ⟨.hbm, 120, rfl⟩
abbrev main_v23 : Ref sig .tc := ⟨.hbm, 121, rfl⟩
abbrev main_v24 : Ref sig .tc := ⟨.hbm, 122, rfl⟩
abbrev main_v25 : Ref sig .tc := ⟨.hbm, 123, rfl⟩
abbrev main_v26 : Ref sig .tc := ⟨.hbm, 124, rfl⟩
abbrev main_v27 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x1 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x256_0 : S500000.BroadcastsInDim S500000x256 (![0] : Fin 1 → Fin S500000x256.rank)
  bcast_S_S500000x256 : S_.BroadcastsInDim S500000x256 (![] : Fin 0 → Fin S500000x256.rank)
  bitsLt_bf16_f32 : FTy.bits .bf16 < FTy.bits .f32
  transposes_S256x256_S256x256_1_0 : S256x256.Transposes [1, 0] S256x256
  concatenates_S256x256_S256x256_S512x256_d0 : Shape.Concatenates [S256x256, S256x256] S512x256 0
  transposes_S1x256_S256x1_1_0 : S1x256.Transposes [1, 0] S256x1
  shapeCasts_S256_S1x256 : S256.ShapeCasts S1x256
  shapeCasts_S1_S1x1 : S1.ShapeCasts S1x1
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  concatenates_S10000x256_S10000x256_S10000x512_d1 : Shape.Concatenates [S10000x256, S10000x256] S10000x512 1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S10000x256 : S1x256.Broadcasts S10000x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  concatenates_S500000x1_S500000x1_S1000000x1_d0 : Shape.Concatenates [S500000x1, S500000x1] S1000000x1 0
  gather_S100000x256_S500000x1_S500000x256_1_0_n_n_0_1_1256_wf : GatherDims.WF S100000x256 S500000x1 S500000x256 [1] [0] [] [0] [] 1 ![1, 256]
  dot_S10000x512_S512x256_S10000x256_1_0_0_1_n_n_wf : DotDims.WF S10000x512 S512x256 S10000x256 [1] [0] [0] [1] [] []
  dot_S10000x256_S256x1_S10000x1_1_0_0_1_n_n_wf : DotDims.WF S10000x256 S256x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S500000x256.size a
  hwx0_0 : ∀ i : grid0.Coords, EltTy.bits .bf16 = 32 ∨ (Rect.block (s := S500000x256) S10000x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S500000x256.size a
  hwx0_1 : ∀ i : grid0.Coords, EltTy.bits .bf16 = 32 ∨ (Rect.block (s := S500000x256) S10000x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .bf16 = 32 ∨ (Rect.block (s := S512x256) S512x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .bf16 = 32 ∨ (Rect.block (s := S256x1) S256x1.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x1.size a ≤ S500000x1.size a
  hwx0_6 : ∀ i : grid0.Coords, EltTy.bits .f32 = 32 ∨ (Rect.block (s := S500000x1) S10000x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x256.size a ≤ S500000x256.size a
  hwx1_0 : ∀ i : grid1.Coords, EltTy.bits .bf16 = 32 ∨ (Rect.block (s := S500000x256) S10000x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S500000x256.size a
  hwx1_1 : ∀ i : grid1.Coords, EltTy.bits .bf16 = 32 ∨ (Rect.block (s := S500000x256) S10000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S512x256.size a
  hwx1_2 : ∀ i : grid1.Coords, EltTy.bits .bf16 = 32 ∨ (Rect.block (s := S512x256) S512x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x1.size a ≤ S256x1.size a
  hwx1_3 : ∀ i : grid1.Coords, EltTy.bits .bf16 = 32 ∨ (Rect.block (s := S256x1) S256x1.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x1.size a ≤ S500000x1.size a
  hwx1_6 : ∀ i : grid1.Coords, EltTy.bits .f32 = 32 ∨ (Rect.block (s := S500000x1) S10000x1.size (cc1_transform_6 i) (hinb1_6 i)).WholeWords (EltTy.packing .f32)

variable [Facts₀]

def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def dot_S10000x256_S256x1_S10000x1_1_0_0_1_n_n : DotDims S10000x256 S256x1 S10000x1 where
  lhsContracting := [1]
  rhsContracting := [0]
  lhsNonContracting := [0]
  rhsNonContracting := [1]
  lhsBatch := []
  rhsBatch := []
  wf := dot_S10000x256_S256x1_S10000x1_1_0_0_1_n_n_wf

abbrev win0_0 : Pipeline.Window sig grid0 :=
  Pipeline.Window.ofSpec (Memref.whole main_v9) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S10000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S10000x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v13) S10000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S512x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S256x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S10000x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x500000 : Shape := ⟨2, ![2, 500000]⟩
abbrev S256x256 : Shape := ⟨2, ![256, 256]⟩
abbrev S256 : Shape := ⟨1, ![256]⟩
abbrev S1x256 : Shape := ⟨2, ![1, 256]⟩
abbrev S1 : Shape := ⟨1, ![1]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x256 : Shape := ⟨2, ![500000, 256]⟩
abbrev S256x1 : Shape := ⟨2, ![256, 1]⟩
abbrev S1x1 : Shape := ⟨2, ![1, 1]⟩
abbrev S1000000x1 : Shape := ⟨2, ![1000000, 1]⟩

abbrev nBuf : Space → Nat
  | .hbm => 109
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S100000x256, .f32⟩
  | .hbm, ⟨2, _⟩ => ⟨S2x500000, .i32⟩
  | .hbm, ⟨3, _⟩ => ⟨S2x500000, .i32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1x256, .f32⟩
  | .hbm, ⟨9, _⟩ => ⟨S1, .f32⟩
  | .hbm, ⟨10, _⟩ => ⟨S1x500000, .i32⟩
  | .hbm, ⟨11, _⟩ => ⟨S500000, .i32⟩
  | .hbm, ⟨12, _⟩ => ⟨S_, .i32⟩
  | .hbm, ⟨13, _⟩ => ⟨S500000, .i32⟩
  | .hbm, ⟨14, _⟩ => ⟨S500000, .i1⟩
  | .hbm, ⟨15, _⟩ => ⟨S_, .i32⟩
  | .hbm, ⟨16, _⟩ => ⟨S500000, .i32⟩
  | .hbm, ⟨17, _⟩ => ⟨S500000, .i32⟩
  | .hbm, ⟨18, _⟩ => ⟨S500000, .i32⟩
  | .hbm, ⟨19, _⟩ => ⟨S500000x1, .i32⟩
  | .hbm, ⟨20, _⟩ => ⟨S500000x256, .f32⟩
  | .hbm, ⟨21, _⟩ => ⟨S1x500000, .i32⟩
  | .hbm, ⟨22, _⟩ => ⟨S500000, .i32⟩
  | .hbm, ⟨23, _⟩ => ⟨S_, .i32⟩
  | .hbm, ⟨24, _⟩ => ⟨S500000, .i32⟩
  | .hbm, ⟨25, _⟩ => ⟨S500000, .i1⟩
  | .hbm, ⟨26, _⟩ => ⟨S_, .i32⟩
  | .hbm, ⟨27, _⟩ => ⟨S500000, .i32⟩
  | .hbm, ⟨28, _⟩ => ⟨S500000, .i32⟩
  | .hbm, ⟨29, _⟩ => ⟨S500000, .i32⟩
  | .hbm, ⟨30, _⟩ => ⟨S500000x1, .i32⟩
  | .hbm, ⟨31, _⟩ => ⟨S500000x256, .f32⟩
  | .hbm, ⟨32, _⟩ => ⟨S256x256, .f32⟩
  | .hbm, ⟨33, _⟩ => ⟨S500000x256, .f32⟩
  | .hbm, ⟨34, _⟩ => ⟨S1x256, .f32⟩
  | .hbm, ⟨35, _⟩ => ⟨S500000x256, .f32⟩
  | .hbm, ⟨36, _⟩ => ⟨S500000x256, .f32⟩
  | .hbm, ⟨37, _⟩ => ⟨S256x256, .f32⟩
  | .hbm, ⟨38, _⟩ => ⟨S500000x256, .f32⟩
  | .hbm, ⟨39, _⟩ => ⟨S500000x256, .f32⟩
  | .hbm, ⟨40, _⟩ => ⟨S1x256, .f32⟩
  | .hbm, ⟨41, _⟩ => ⟨S500000x256, .f32⟩
  | .hbm, ⟨42, _⟩ => ⟨S500000x256, .f32⟩
  | .hbm, ⟨43, _⟩ => ⟨S_, .f32⟩
  | .hbm, ⟨44, _⟩ => ⟨S500000x256, .f32⟩
  | .hbm, ⟨45, _⟩ => ⟨S500000x256, .f32⟩
  | .hbm, ⟨46, _⟩ => ⟨S256x1, .f32⟩
  | .hbm, ⟨47, _⟩ => ⟨S500000x1, .f32⟩
  | .hbm, ⟨48, _⟩ => ⟨S1x1, .f32⟩
  | .hbm, ⟨49, _⟩ => ⟨S500000x1, .f32⟩
  | .hbm, ⟨50, _⟩ => ⟨S500000x1, .f32⟩
  | .hbm, ⟨51, _⟩ => ⟨S500000x1, .f32⟩
  | .hbm, ⟨52, _⟩ => ⟨S500000x1, .f32⟩
  | .hbm, ⟨53, _⟩ => ⟨S_, .f32⟩
  | .hbm, ⟨54, _⟩ => ⟨S500000x1, .f32⟩
  | .hbm, ⟨55, _⟩ => ⟨S500000x1, .f32⟩
  | .hbm, ⟨56, _⟩ => ⟨S_, .f32⟩
  | .hbm, ⟨57, _⟩ => ⟨S500000x1, .f32⟩
  | .hbm, ⟨58, _⟩ => ⟨S500000x1, .f32⟩
  | .hbm, ⟨59, _⟩ => ⟨S1x500000, .i32⟩
  | .hbm, ⟨60, _⟩ => ⟨S500000, .i32⟩
  | .hbm, ⟨61, _⟩ => ⟨S_, .i32⟩
  | .hbm, ⟨62, _⟩ => ⟨S500000, .i32⟩
  | .hbm, ⟨63, _⟩ => ⟨S500000, .i1⟩
  | .hbm, ⟨64, _⟩ => ⟨S_, .i32⟩
  | .hbm, ⟨65, _⟩ => ⟨S500000, .i32⟩
  | .hbm, ⟨66, _⟩ => ⟨S500000, .i32⟩
  | .hbm, ⟨67, _⟩ => ⟨S500000, .i32⟩
  | .hbm, ⟨68, _⟩ => ⟨S500000x1, .i32⟩
  | .hbm, ⟨69, _⟩ => ⟨S500000x256, .f32⟩
  | .hbm, ⟨70, _⟩ => ⟨S1x500000, .i32⟩
  | .hbm, ⟨71, _⟩ => ⟨S500000, .i32⟩
  | .hbm, ⟨72, _⟩ => ⟨S_, .i32⟩
  | .hbm, ⟨73, _⟩ => ⟨S500000, .i32⟩
  | .hbm, ⟨74, _⟩ => ⟨S500000, .i1⟩
  | .hbm, ⟨75, _⟩ => ⟨S_, .i32⟩
  | .hbm, ⟨76, _⟩ => ⟨S500000, .i32⟩
  | .hbm, ⟨77, _⟩ => ⟨S500000, .i32⟩
  | .hbm, ⟨78, _⟩ => ⟨S500000, .i32⟩
  | .hbm, ⟨79, _⟩ => ⟨S500000x1, .i32⟩
  | .hbm, ⟨80, _⟩ => ⟨S500000x256, .f32⟩
  | .hbm, ⟨81, _⟩ => ⟨S256x256, .f32⟩
  | .hbm, ⟨82, _⟩ => ⟨S500000x256, .f32⟩
  | .hbm, ⟨83, _⟩ => ⟨S1x256, .f32⟩
  | .hbm, ⟨84, _⟩ => ⟨S500000x256, .f32⟩
  | .hbm, ⟨85, _⟩ => ⟨S500000x256, .f32⟩
  | .hbm, ⟨86, _⟩ => ⟨S256x256, .f32⟩
  | .hbm, ⟨87, _⟩ => ⟨S500000x256, .f32⟩
  | .hbm, ⟨88, _⟩ => ⟨S500000x256, .f32⟩
  | .hbm, ⟨89, _⟩ => ⟨S1x256, .f32⟩
  | .hbm, ⟨90, _⟩ => ⟨S500000x256, .f32⟩
  | .hbm, ⟨91, _⟩ => ⟨S500000x256, .f32⟩
  | .hbm, ⟨92, _⟩ => ⟨S_, .f32⟩
  | .hbm, ⟨93, _⟩ => ⟨S500000x256, .f32⟩
  | .hbm, ⟨94, _⟩ => ⟨S500000x256, .f32⟩
  | .hbm, ⟨95, _⟩ => ⟨S256x1, .f32⟩
  | .hbm, ⟨96, _⟩ => ⟨S500000x1, .f32⟩
  | .hbm, ⟨97, _⟩ => ⟨S1x1, .f32⟩
  | .hbm, ⟨98, _⟩ => ⟨S500000x1, .f32⟩
  | .hbm, ⟨99, _⟩ => ⟨S500000x1, .f32⟩
  | .hbm, ⟨100, _⟩ => ⟨S500000x1, .f32⟩
  | .hbm, ⟨101, _⟩ => ⟨S500000x1, .f32⟩
  | .hbm, ⟨102, _⟩ => ⟨S_, .f32⟩
  | .hbm, ⟨103, _⟩ => ⟨S500000x1, .f32⟩
  | .hbm, ⟨104, _⟩ => ⟨S500000x1, .f32⟩
  | .hbm, ⟨105, _⟩ => ⟨S_, .f32⟩
  | .hbm, ⟨106, _⟩ => ⟨S500000x1, .f32⟩
  | .hbm, ⟨107, _⟩ => ⟨S500000x1, .f32⟩
  | .hbm, ⟨108, _⟩ => ⟨S1000000x1, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst : Ref sig .tc := ⟨.hbm, 53, rfl⟩
abbrev main_v37 : Ref sig .tc := ⟨.hbm, 54, rfl⟩
abbrev main_v38 : Ref sig .tc := ⟨.hbm, 55, rfl⟩
abbrev main_cst_3 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_4 : Ref sig .tc := ⟨.hbm, 61, rfl⟩
abbrev main_v43 : Ref sig .tc := ⟨.hbm, 62, rfl⟩
abbrev main_v44 : Ref sig .tc := ⟨.hbm, 63, rfl⟩
abbrev main_c_5 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_6 : Ref sig .tc := ⟨.hbm, 72, rfl⟩
abbrev main_v52 : Ref sig .tc := ⟨.hbm, 73, rfl⟩
abbrev main_v53 : Ref sig .tc := ⟨.hbm, 74, rfl⟩
abbrev main_c_7 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_call1_cst : Ref sig .tc := ⟨.hbm, 92, rfl⟩
abbrev main_call1_v0 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_8 : Ref sig .tc := ⟨.hbm, 102, rfl⟩
abbrev main_v78 : Ref sig .tc := ⟨.hbm, 103, rfl⟩
abbrev main_v79 : Ref sig .tc := ⟨.hbm, 104, rfl⟩
abbrev main_cst_9 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  transposes_S256x256_S256x256_1_0 : S256x256.Transposes [1, 0] S256x256
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  transposes_S1x256_S256x1_1_0 : S1x256.Transposes [1, 0] S256x1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  concatenates_S500000x1_S500000x1_S1000000x1_d0 : Shape.Concatenates [S500000x1, S500000x1] S1000000x1 0
  gather_S100000x256_S500000x1_S500000x256_1_0_n_n_0_1_1256_wf : GatherDims.WF S100000x256 S500000x1 S500000x256 [1] [0] [] [0] [] 1 ![1, 256]
  dot_S500000x256_S256x256_S500000x256_1_0_0_1_n_n_wf : DotDims.WF S500000x256 S256x256 S500000x256 [1] [0] [0] [1] [] []
  dot_S500000x256_S256x1_S500000x1_1_0_0_1_n_n_wf : DotDims.WF S500000x256 S256x1 S500000x1 [1] [0] [0] [1] [] []

variable [Facts₀]

def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def dot_S500000x256_S256x256_S500000x256_1_0_0_1_n_n : DotDims S500000x256 S256x256 S500000x256 where
  lhsContracting := [1]
  rhsContracting := [0]
  lhsNonContracting := [0]
  rhsNonContracting := [1]
  lhsBatch := []
  rhsBatch := []
  wf := dot_S500000x256_S256x256_S500000x256_1_0_0_1_n_n_wf
def dot_S500000x256_S256x1_S500000x1_1_0_0_1_n_n : DotDims S500000x256 S256x1 S500000x1 where
  lhsContracting := [1]
  rhsContracting := [0]
  lhsNonContracting := [0]
  rhsNonContracting := [1]
  lhsBatch := []
  rhsBatch := []
  wf := dot_S500000x256_S256x1_S500000x1_1_0_0_1_n_n_wf

class Facts : Prop extends Facts₀ where

variable [Facts]
-- ==== Proof.Spec.lean ====
/-
  The link score of one edge, and of all edges of both edge types.

  For an edge with source embedding s and destination embedding d (256 entries each), the score is
      σ( Σ_j relu( ((Σ_k s_k·Ws[j,k] + bs_j) + Σ_k d_k·Wd[j,k]) + bd_j ) · wf_j + bf ),
  σ the logistic function  x ↦ 1 / (1 + e^(−x)).  A second arrangement computes the same number from the
  joined embedding x = (s, d) of 512 entries, the stacked weights wc (rows 0..255 the transpose of Ws, rows
  256..511 the transpose of Wd) and the summed bias b = bs + bd:
      σ( Σ_j relu( Σ_k x_k·wc[k,j] + b_j ) · wf_j + bf ).
  The two agree on all extended reals: a sum over 512 positions splits into its two halves, and addition of
  extended reals is associative and commutative; no finiteness is used.
-/
import Idealize.ShloMosaic.Lib.ValueIdx
import Idealize.ShloMosaic.PureOps.Ideal

noncomputable section

namespace Cert.Spec

open Idealize.ShloMosaic Idealize.ShloMosaic.ValueIdx

/-- The score of one edge from its two embeddings, the two weight matrices as given (entry [j, k] multiplies input
    position k into hidden unit j), the two biases, the final weights and the final bias. -/
def rowR (s d : Fin 256 → EReal) (Ws Wd : Fin 256 → Fin 256 → EReal) (bs bd : Fin 256 → EReal)
    (wf : Fin 256 → EReal) (bf : EReal) : EReal :=
  Ideal.logistic ((∑ j : Fin 256,
    max ((((∑ k : Fin 256, s k * Ws j k) + bs j) + (∑ k : Fin 256, d k * Wd j k)) + bd j) 0 * wf j) + bf)

/-- The score of one edge from the joined embedding of 512 entries, the stacked weights (entry [k, j] multiplies
    joined position k into hidden unit j) and one bias. -/
def rowK (x : Fin 512 → EReal) (wc : Fin 512 → Fin 256 → EReal) (b : Fin 256 → EReal)
    (wf : Fin 256 → EReal) (bf : EReal) : EReal :=
  Ideal.logistic ((∑ j : Fin 256, max ((∑ k : Fin 512, x k * wc k j) + b j) 0 * wf j) + bf)

/-- Two vectors of 256 entries joined into one of 512. -/
def join (s d : Fin 256 → EReal) : Fin 512 → EReal :=
  fun k => if h : k.val < 256 then s ⟨k.val, h⟩ else d ⟨k.val - 256, by have := k.isLt; omega⟩

/-- The transposes of two 256 × 256 matrices stacked into 512 rows. -/
def stack (Ws Wd : Fin 256 → Fin 256 → EReal) : Fin 512 → Fin 256 → EReal :=
  fun k j => if h : k.val < 256 then Ws j ⟨k.val, h⟩ else Wd j ⟨k.val - 256, by have := k.isLt; omega⟩

/-- A sum over 512 positions is the sum over the first 256 plus the sum over the last 256. -/
theorem sum_512 (f : Fin 512 → EReal) :
    ∑ k : Fin 512, f k = (∑ k : Fin 256, f ⟨k.val, by have := k.isLt; omega⟩)
      + ∑ k : Fin 256, f ⟨k.val + 256, by have := k.isLt; omega⟩ := by
  have h := Fin.sum_univ_add (a := 256) (b := 256) (f : Fin (256 + 256) → EReal)
  refine h.trans ?_
  refine congrArg₂ (· + ·) (Finset.sum_congr rfl fun k _ => congrArg f (Fin.ext rfl))
    (Finset.sum_congr rfl fun k _ => congrArg f (Fin.ext ?_))
  show 256 + k.val = k.val + 256
  omega

/-- The joined arrangement computes the score. -/
theorem rowK_join (s d : Fin 256 → EReal) (Ws Wd : Fin 256 → Fin 256 → EReal) (bs bd : Fin 256 → EReal)
    (wf : Fin 256 → EReal) (bf : EReal) :
    rowK (join s d) (stack Ws Wd) (fun j => bs j + bd j) wf bf = rowR s d Ws Wd bs bd wf bf := by
  unfold rowK rowR
  refine congrArg (fun t => Ideal.logistic (t + bf)) (Finset.sum_congr rfl fun j _ => ?_)
  refine congrArg (fun t => max t 0 * wf j) ?_
  rw [sum_512]
  have e1 : (∑ k : Fin 256, join s d ⟨k.val, by have := k.isLt; omega⟩ * stack Ws Wd ⟨k.val, by have := k.isLt; omega⟩ j)
      = ∑ k : Fin 256, s k * Ws j k :=
    Finset.sum_congr rfl fun k _ => by
      unfold join stack
      simp only [dif_pos k.isLt, Fin.eta]
  have e2 : (∑ k : Fin 256, join s d ⟨k.val + 256, by have := k.isLt; omega⟩ * stack Ws Wd ⟨k.val + 256, by have := k.isLt; omega⟩ j)
      = ∑ k : Fin 256, d k * Wd j k :=
    Finset.sum_congr rfl fun k _ => by
      unfold join stack
      have hn : ¬ k.val + 256 < 256 := by omega
      simp only [dif_neg hn, Nat.add_sub_cancel, Fin.eta]
  rw [e1, e2]
  show _ + _ + (bs j + bd j) = _
  ac_rfl

/-! ## Whole arrays -/

/-- The row of an entry of a [500000, 1] column. -/
def rowOf (i : (⟨2, ![500000, 1]⟩ : Shape).Idx) : Fin 500000 := ⟨(i 0).val, (i 0).isLt⟩

/-- The scores of 500000 edges, one per row, from the two arrays of gathered embeddings (row r of x0 the source
    embedding of edge r, row r of x1 its destination embedding) and the model's parameters as given. -/
def scoreArr (x0 x1 : (⟨2, ![500000, 256]⟩ : Shape).Idx → EReal)
    (Ws Wd : (⟨2, ![256, 256]⟩ : Shape).Idx → EReal) (bs bd : (⟨1, ![256]⟩ : Shape).Idx → EReal)
    (Wf : (⟨2, ![1, 256]⟩ : Shape).Idx → EReal) (bf : (⟨1, ![1]⟩ : Shape).Idx → EReal) :
    (⟨2, ![500000, 1]⟩ : Shape).Idx → EReal :=
  fun i => rowR (fun k => x0 (ix2 (rowOf i) k)) (fun k => x1 (ix2 (rowOf i) k))
    (fun j k => Ws (ix2 j k)) (fun j k => Wd (ix2 j k)) (fun j => bs (ix1 j)) (fun j => bd (ix1 j))
    (fun j => Wf (ix2 0 j)) (bf (ix1 0))

/-- The same scores in the joined arrangement: from the gathered embeddings, the stacked weights wc [512, 256], the
    summed bias b [1, 256], the final weights as a column wf [256, 1] and the final bias bf [1, 1]. -/
def scoreArrK (x0 x1 : (⟨2, ![500000, 256]⟩ : Shape).Idx → EReal)
    (wc : (⟨2, ![512, 256]⟩ : Shape).Idx → EReal) (b : (⟨2, ![1, 256]⟩ : Shape).Idx → EReal)
    (wf : (⟨2, ![256, 1]⟩ : Shape).Idx → EReal) (bf : (⟨2, ![1, 1]⟩ : Shape).Idx → EReal) :
    (⟨2, ![500000, 1]⟩ : Shape).Idx → EReal :=
  fun i => rowK (join (fun k => x0 (ix2 (rowOf i) k)) (fun k => x1 (ix2 (rowOf i) k)))
    (fun k j => wc (ix2 k j)) (fun j => b (ix2 0 j)) (fun j => wf (ix2 j 0)) (bf (ix2 0 0))

/-- When the stacked weights, the summed bias, the final column and the final bias are what the parameters give, the
    joined arrangement computes the scores. -/
theorem scoreArrK_eq (x0 x1 : (⟨2, ![500000, 256]⟩ : Shape).Idx → EReal)
    (Ws Wd : (⟨2, ![256, 256]⟩ : Shape).Idx → EReal) (bs bd : (⟨1, ![256]⟩ : Shape).Idx → EReal)
    (Wf : (⟨2, ![1, 256]⟩ : Shape).Idx → EReal) (bf : (⟨1, ![1]⟩ : Shape).Idx → EReal)
    (wc : (⟨2, ![512, 256]⟩ : Shape).Idx → EReal) (b : (⟨2, ![1, 256]⟩ : Shape).Idx → EReal)
    (wf : (⟨2, ![256, 1]⟩ : Shape).Idx → EReal) (bf' : (⟨2, ![1, 1]⟩ : Shape).Idx → EReal)
    (hwc : ∀ (k : Fin 512) (j : Fin 256), wc (ix2 k j) = stack (fun j k => Ws (ix2 j k)) (fun j k => Wd (ix2 j k)) k j)
    (hb : ∀ j : Fin 256, b (ix2 0 j) = bs (ix1 j) + bd (ix1 j))
    (hwf : ∀ j : Fin 256, wf (ix2 j 0) = Wf (ix2 0 j))
    (hbf : bf' (ix2 0 0) = bf (ix1 0)) :
    scoreArrK x0 x1 wc b wf bf' = scoreArr x0 x1 Ws Wd bs bd Wf bf := by
  funext i
  unfold scoreArrK scoreArr
  rw [← rowK_join]
  refine congr (congr (congr (congrArg _ ?_) ?_) ?_) hbf
  · exact funext fun k => funext fun j => hwc k j
  · exact funext hb
  · exact funext hwf

end Cert.Spec

end
-- ==== Proof.Params.lean ====
/-
  The model's parameters as the launches receive them, read at an entry.

  The stacked weights are the two weight matrices, each transposed, joined along the rows: entry (k, j) is
  Ws[j, k] for k below 256 and Wd[j, k − 256] from there on. The summed bias as a [1, 256] row, the final weights as
  a [256, 1] column and the final bias as a [1, 1] array are re-laid copies of the given vectors.
-/
import Idealize.ShloMosaic.Lib.ValueIdx
import Idealize.ShloMosaic.Lib.ValueLayout
import Idealize.ShloMosaic.Lib.Pipeline.Value
import proofs.«426056_j26843545600130_2_alg».proof.Proof.Spec

noncomputable section

namespace Cert.Params

open Idealize.ShloMosaic Idealize.ShloMosaic.ValueIdx

/-- The row-stack of two transposed 256 × 256 matrices, read at (k, j). -/
theorem stacked_apply (Ws Wd : (⟨2, ![256, 256]⟩ : Shape).Idx → EReal)
    (ht : (⟨2, ![256, 256]⟩ : Shape).Transposes [1, 0] ⟨2, ![256, 256]⟩)
    (hc : Shape.Concatenates [(⟨2, ![256, 256]⟩ : Shape), ⟨2, ![256, 256]⟩] ⟨2, ![512, 256]⟩ 0)
    (k : Fin 512) (j : Fin 256) :
    concatenate ⟨2, ![512, 256]⟩ 0
        [⟨⟨2, ![256, 256]⟩, transpose ⟨2, ![256, 256]⟩ [1, 0] Ws ht⟩, ⟨⟨2, ![256, 256]⟩, transpose ⟨2, ![256, 256]⟩ [1, 0] Wd ht⟩] hc (ix2 k j)
      = Cert.Spec.stack (fun j k => Ws (ix2 j k)) (fun j k => Wd (ix2 j k)) k j := by
  unfold Cert.Spec.stack
  by_cases h : k.val < 256
  · rw [dif_pos h,
      concatenate_pair_apply_left (t := ⟨2, ![512, 256]⟩) (s₁ := ⟨2, ![256, 256]⟩) (s₂ := ⟨2, ![256, 256]⟩) (0 : Fin 2) _ _ hc
        (ix2 k j) rfl (ix2 (⟨k.val, h⟩ : Fin 256) j) (fun b => by match b with | ⟨0, _⟩ => rfl | ⟨1, _⟩ => rfl)]
    exact transpose_ix2_apply Ws ht _ _
  · have h' : k.val - 256 < 256 := by have := k.isLt; omega
    rw [dif_neg h,
      concatenate_pair_apply_right (t := ⟨2, ![512, 256]⟩) (s₁ := ⟨2, ![256, 256]⟩) (s₂ := ⟨2, ![256, 256]⟩) (0 : Fin 2) _ _ hc
        (ix2 k j) rfl rfl (ix2 (⟨k.val - 256, h'⟩ : Fin 256) j)
        (fun b hb => by match b with | ⟨0, _⟩ => exact absurd rfl hb | ⟨1, _⟩ => rfl)
        (by show k.val - 256 + 256 = k.val; omega)]
    exact transpose_ix2_apply Wd ht _ _

/-- The sum of two vectors of 256 entries laid out as a [1, 256] row, read at (0, j). -/
theorem bias_row_apply (bs bd : FVec Ideal ⟨1, ![256]⟩ .f32)
    (h : (⟨1, ![256]⟩ : Shape).ShapeCasts ⟨2, ![1, 256]⟩) (j : Fin 256) :
    shapeCast ⟨2, ![1, 256]⟩ (addf bs bd) h (ix2 (0 : Fin 1) j) = bs (ix1 j) + bd (ix1 j) :=
  shapeCast_a_1a_apply (addf bs bd) h 0 j

/-- A [1, 256] row transposed into a column, read at (j, 0). -/
theorem final_col_apply (Wf : (⟨2, ![1, 256]⟩ : Shape).Idx → EReal)
    (h : (⟨2, ![1, 256]⟩ : Shape).Transposes [1, 0] ⟨2, ![256, 1]⟩) (j : Fin 256) :
    transpose ⟨2, ![256, 1]⟩ [1, 0] Wf h (ix2 j (0 : Fin 1)) = Wf (ix2 (0 : Fin 1) j) :=
  transpose_ix2_apply Wf h j 0

/-- A vector of one entry laid out as a [1, 1] array, read at (0, 0). -/
theorem final_bias_apply (bf : (⟨1, ![1]⟩ : Shape).Idx → EReal)
    (h : (⟨1, ![1]⟩ : Shape).ShapeCasts ⟨2, ![1, 1]⟩) :
    shapeCast ⟨2, ![1, 1]⟩ bf h (ix2 (0 : Fin 1) (0 : Fin 1)) = bf (ix1 (0 : Fin 1)) :=
  shapeCast_a_1a_apply bf h 0 0

end Cert.Params

end
-- ==== Proof.LibTake.lean ====
/-
  jnp.take along axis 0 with in-range indices.

  The default-mode take wraps negative indices once, gathers with the wrapped indices as start
  indices, and replaces by a fill value every row whose wrapped index lies outside the table.
  When every index is already a natural number below the table's row count N (with N below 2³¹,
  so that each word is non-negative as a signed integer), nothing wraps, every row passes the
  range test, and the whole composite is the plain gather at the given indices.

  Also here: a concatenation of in-range indices with an iota stays in range.
-/
import Idealize.ShloMosaic.PureOps
import Idealize.ShloMosaic.Lib.StableHlo.Predicate
import Idealize.ShloMosaic.Lib.ReduceAll
import Idealize.ShloMosaic.Lib.Pipeline.Value

namespace Cert.LibTake

open Idealize.ShloMosaic
open Idealize.ShloMosaic.StableHlo.Predicate

variable {α : Type}

/-! ## A select whose condition is all ones -/

/-- A select under a mask that is 1 at every index returns its first branch. -/
theorem select_ones {s : Shape} (mask : IVec s 1) (a b : s.Idx → α) (h : ∀ i, mask i = 1#1) :
    select mask a b = a := by
  funext i
  show Scalar.select (mask i) (a i) (b i) = a i
  unfold Scalar.select
  rw [h i]
  exact if_pos rfl

/-- A select under a mask that is 1 nowhere returns its second branch. -/
theorem select_none {s : Shape} (mask : IVec s 1) (a b : s.Idx → α) (h : ∀ i, ¬ mask i = 1#1) :
    select mask a b = b := by
  funext i
  show Scalar.select (mask i) (a i) (b i) = b i
  unfold Scalar.select
  exact if_neg (h i)

/-! ## The wrap of negative indices -/

/-- With every index a natural number below N < 2³¹, no index is negative as a signed word, so the
    select that adds N to the negative ones returns the index vector itself. -/
theorem wrap_id {R N : Nat} (hN : N < 2 ^ 31) (idx : IVec ⟨1, ![R]⟩ 32) (hidx : ∀ r, (idx r).toNat < N)
    (hz hn : (⟨0, ![]⟩ : Shape).BroadcastsInDim ⟨1, ![R]⟩ ![]) :
    select (cmpi .slt idx (broadcastInDim ⟨1, ![R]⟩ ![] hz (constantI ⟨0, ![]⟩ 32 0#32)))
      (addi idx (broadcastInDim ⟨1, ![R]⟩ ![] hn (constantI ⟨0, ![]⟩ 32 (BitVec.ofNat 32 N)))) idx = idx := by
  apply select_none
  intro r
  show ¬ IntOp.cmpi .slt (idx r) 0#32 = 1#1
  have hr := hidx r
  rw [slt_iff_toNat (by omega) (by decide)]
  simp

/-! ## The range mask -/

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = (1#1 : BitVec 1) from by decide]
    exact foldl_andi_ones f hf l

/-- A reduction by `and` from an initial value 1 of an array that is 1 everywhere is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1)
    (j : t.Idx) : Host.reduce IntOp.andi x init h hu j = 1#1 := by
  rw [Host.reduce_eq_foldl, hinit]
  exact foldl_andi_ones x hx _

/-- With every index a natural number below N < 2³¹, the start-index column passes both range tests
    (0 ≤ index, index ≤ N − 1) in every row, so the row mask — their conjunction reduced by `and` along the
    column axis — is 1 at every row. -/
theorem mask_ones {R N : Nat} (hN : N < 2 ^ 31) (idx : IVec ⟨1, ![R]⟩ 32) (hidx : ∀ r, (idx r).toNat < N)
    (hI : (⟨1, ![R]⟩ : Shape).BroadcastsInDim ⟨2, ![R, 1]⟩ ![0])
    (h0 : (⟨0, ![]⟩ : Shape).BroadcastsInDim ⟨2, ![R, 1]⟩ ![])
    (h1 : (⟨1, ![1]⟩ : Shape).BroadcastsInDim ⟨2, ![1, 1]⟩ ![1])
    (h2 : (⟨2, ![1, 1]⟩ : Shape).BroadcastsInDim ⟨2, ![R, 1]⟩ ![0, 1])
    (hr : (⟨2, ![R, 1]⟩ : Shape).ReducesTo [1] ⟨1, ![R]⟩) (hu : 0 < (⟨0, ![]⟩ : Shape).numel)
    (j : (⟨1, ![R]⟩ : Shape).Idx) :
    Host.reduce IntOp.andi
      (andi
        (cmpi .sge (broadcastInDim ⟨2, ![R, 1]⟩ ![0] hI idx)
          (broadcastInDim ⟨2, ![R, 1]⟩ ![] h0 (constantI ⟨0, ![]⟩ 32 0#32)))
        (cmpi .sle (broadcastInDim ⟨2, ![R, 1]⟩ ![0] hI idx)
          (broadcastInDim ⟨2, ![R, 1]⟩ ![0, 1] h2
            (broadcastInDim ⟨2, ![1, 1]⟩ ![1] h1 (constantI ⟨1, ![1]⟩ 32 (BitVec.ofNat 32 (N - 1)))))))
      (constantI ⟨0, ![]⟩ 1 1#1) hr hu j = 1#1 := by
  apply reduce_andi_ones _ _ hr hu _ rfl
  intro i
  -- the start index at i is one of the given indices
  obtain ⟨r, hIr⟩ : ∃ r, broadcastInDim ⟨2, ![R, 1]⟩ ![0] hI idx i = idx r := ⟨_, rfl⟩
  have hlt := hidx r
  have hM : (BitVec.ofNat 32 (N - 1)).toNat = N - 1 := by
    rw [BitVec.toNat_ofNat]; exact Nat.mod_eq_of_lt (by omega)
  show IntOp.andi (IntOp.cmpi .sge (broadcastInDim ⟨2, ![R, 1]⟩ ![0] hI idx i) 0#32)
      (IntOp.cmpi .sle (broadcastInDim ⟨2, ![R, 1]⟩ ![0] hI idx i) (BitVec.ofNat 32 (N - 1))) = 1#1
  rw [hIr, IntOp.andi_eq_one, sge_iff_toNat (by omega) (by decide), sle_iff_toNat (by omega) (by rw [hM]; omega), hM]
  exact ⟨Nat.zero_le _, by omega⟩

/-! ## The take composite is the plain gather -/

/-- THE TAKE OF ROWS (a table whose gathered slices have C entries each; result [R, C]). With every index a natural number
    below N < 2³¹: the wrap of negative indices does nothing, the row mask — broadcast along the rows of the result — is
    all ones, and so the select between the gathered rows and the fill array is the gather at the given indices kept
    as an [R, 1] column. The table's shape, the gather's dimension numbers and the fill array are arbitrary. -/
theorem take_rows_eq {R N C : Nat} {s : Shape} (hN : N < 2 ^ 31) (idx : IVec ⟨1, ![R]⟩ 32)
    (hidx : ∀ r, (idx r).toNat < N) (d : GatherDims s ⟨2, ![R, 1]⟩ ⟨2, ![R, C]⟩) (x : s.Idx → α)
    (fill : (⟨2, ![R, C]⟩ : Shape).Idx → α)
    (hz hn : (⟨0, ![]⟩ : Shape).BroadcastsInDim ⟨1, ![R]⟩ ![])
    (hI : (⟨1, ![R]⟩ : Shape).BroadcastsInDim ⟨2, ![R, 1]⟩ ![0])
    (h0 : (⟨0, ![]⟩ : Shape).BroadcastsInDim ⟨2, ![R, 1]⟩ ![])
    (h1 : (⟨1, ![1]⟩ : Shape).BroadcastsInDim ⟨2, ![1, 1]⟩ ![1])
    (h2 : (⟨2, ![1, 1]⟩ : Shape).BroadcastsInDim ⟨2, ![R, 1]⟩ ![0, 1])
    (hr : (⟨2, ![R, 1]⟩ : Shape).ReducesTo [1] ⟨1, ![R]⟩) (hu : 0 < (⟨0, ![]⟩ : Shape).numel)
    (hm : (⟨1, ![R]⟩ : Shape).BroadcastsInDim ⟨2, ![R, C]⟩ ![0]) :
    select
      (broadcastInDim ⟨2, ![R, C]⟩ ![0] hm
        (Host.reduce IntOp.andi
          (andi
            (cmpi .sge
              (broadcastInDim ⟨2, ![R, 1]⟩ ![0] hI
                (select (cmpi .slt idx (broadcastInDim ⟨1, ![R]⟩ ![] hz (constantI ⟨0, ![]⟩ 32 0#32)))
                  (addi idx (broadcastInDim ⟨1, ![R]⟩ ![] hn (constantI ⟨0, ![]⟩ 32 (BitVec.ofNat 32 N)))) idx))
              (broadcastInDim ⟨2, ![R, 1]⟩ ![] h0 (constantI ⟨0, ![]⟩ 32 0#32)))
            (cmpi .sle
              (broadcastInDim ⟨2, ![R, 1]⟩ ![0] hI
                (select (cmpi .slt idx (broadcastInDim ⟨1, ![R]⟩ ![] hz (constantI ⟨0, ![]⟩ 32 0#32)))
                  (addi idx (broadcastInDim ⟨1, ![R]⟩ ![] hn (constantI ⟨0, ![]⟩ 32 (BitVec.ofNat 32 N)))) idx))
              (broadcastInDim ⟨2, ![R, 1]⟩ ![0, 1] h2
                (broadcastInDim ⟨2, ![1, 1]⟩ ![1] h1 (constantI ⟨1, ![1]⟩ 32 (BitVec.ofNat 32 (N - 1)))))))
          (constantI ⟨0, ![]⟩ 1 1#1) hr hu))
      (Host.gather d x
        (broadcastInDim ⟨2, ![R, 1]⟩ ![0] hI
          (select (cmpi .slt idx (broadcastInDim ⟨1, ![R]⟩ ![] hz (constantI ⟨0, ![]⟩ 32 0#32)))
            (addi idx (broadcastInDim ⟨1, ![R]⟩ ![] hn (constantI ⟨0, ![]⟩ 32 (BitVec.ofNat 32 N)))) idx)))
      fill
    = Host.gather d x (broadcastInDim ⟨2, ![R, 1]⟩ ![0] hI idx) := by
  rw [wrap_id hN idx hidx hz hn]
  apply select_ones
  intro i
  exact mask_ones hN idx hidx hI h0 h1 h2 hr hu _

/-- THE TAKE OF ENTRIES (a table whose gathered slices are single entries; result [R]). As `take_rows_eq`, the row
    mask used as it is. -/
theorem take_vec_eq {R N : Nat} {s : Shape} (hN : N < 2 ^ 31) (idx : IVec ⟨1, ![R]⟩ 32)
    (hidx : ∀ r, (idx r).toNat < N) (d : GatherDims s ⟨2, ![R, 1]⟩ ⟨1, ![R]⟩) (x : s.Idx → α)
    (fill : (⟨1, ![R]⟩ : Shape).Idx → α)
    (hz hn : (⟨0, ![]⟩ : Shape).BroadcastsInDim ⟨1, ![R]⟩ ![])
    (hI : (⟨1, ![R]⟩ : Shape).BroadcastsInDim ⟨2, ![R, 1]⟩ ![0])
    (h0 : (⟨0, ![]⟩ : Shape).BroadcastsInDim ⟨2, ![R, 1]⟩ ![])
    (h1 : (⟨1, ![1]⟩ : Shape).BroadcastsInDim ⟨2, ![1, 1]⟩ ![1])
    (h2 : (⟨2, ![1, 1]⟩ : Shape).BroadcastsInDim ⟨2, ![R, 1]⟩ ![0, 1])
    (hr : (⟨2, ![R, 1]⟩ : Shape).ReducesTo [1] ⟨1, ![R]⟩) (hu : 0 < (⟨0, ![]⟩ : Shape).numel) :
    select
      (Host.reduce IntOp.andi
        (andi
          (cmpi .sge
            (broadcastInDim ⟨2, ![R, 1]⟩ ![0] hI
              (select (cmpi .slt idx (broadcastInDim ⟨1, ![R]⟩ ![] hz (constantI ⟨0, ![]⟩ 32 0#32)))
                (addi idx (broadcastInDim ⟨1, ![R]⟩ ![] hn (constantI ⟨0, ![]⟩ 32 (BitVec.ofNat 32 N)))) idx))
            (broadcastInDim ⟨2, ![R, 1]⟩ ![] h0 (constantI ⟨0, ![]⟩ 32 0#32)))
          (cmpi .sle
            (broadcastInDim ⟨2, ![R, 1]⟩ ![0] hI
              (select (cmpi .slt idx (broadcastInDim ⟨1, ![R]⟩ ![] hz (constantI ⟨0, ![]⟩ 32 0#32)))
                (addi idx (broadcastInDim ⟨1, ![R]⟩ ![] hn (constantI ⟨0, ![]⟩ 32 (BitVec.ofNat 32 N)))) idx))
            (broadcastInDim ⟨2, ![R, 1]⟩ ![0, 1] h2
              (broadcastInDim ⟨2, ![1, 1]⟩ ![1] h1 (constantI ⟨1, ![1]⟩ 32 (BitVec.ofNat 32 (N - 1)))))))
        (constantI ⟨0, ![]⟩ 1 1#1) hr hu)
      (Host.gather d x
        (broadcastInDim ⟨2, ![R, 1]⟩ ![0] hI
          (select (cmpi .slt idx (broadcastInDim ⟨1, ![R]⟩ ![] hz (constantI ⟨0, ![]⟩ 32 0#32)))
            (addi idx (broadcastInDim ⟨1, ![R]⟩ ![] hn (constantI ⟨0, ![]⟩ 32 (BitVec.ofNat 32 N)))) idx)))
      fill
    = Host.gather d x (broadcastInDim ⟨2, ![R, 1]⟩ ![0] hI idx) := by
  rw [wrap_id hN idx hidx hz hn]
  apply select_ones
  intro i
  exact mask_ones hN idx hidx hI h0 h1 h2 hr hu i

/-! ## Indices followed by an iota -/

/-- A vector of n words each below B as a natural number, followed by the positions 0, 1, …, m − 1 with m ≤ B, has
    every entry below B. -/
theorem concat_iota_lt {n m T B : Nat} (hmB : m ≤ B) (v : IVec ⟨1, ![n]⟩ 32) (hv : ∀ i, (v i).toNat < B)
    (hc : Shape.Concatenates [(⟨1, ![n]⟩ : Shape), ⟨1, ![m]⟩] ⟨1, ![T]⟩ 0) (j : (⟨1, ![T]⟩ : Shape).Idx) :
    (concatenate ⟨1, ![T]⟩ 0 [⟨⟨1, ![n]⟩, v⟩, ⟨⟨1, ![m]⟩, iotaInDim ⟨1, ![m]⟩ 32 0⟩] hc j).toNat < B := by
  have hT : n + (m + 0) = T := hc.2.2
  have hj : (j 0).val < T := (j 0).isLt
  by_cases hlt : (j 0).val < n
  · rw [concatenate_pair_apply_left (t := ⟨1, ![T]⟩) (s₁ := ⟨1, ![n]⟩) (s₂ := ⟨1, ![m]⟩) (0 : Fin 1) v _ hc j rfl (Shape.Idx.ofFin ⟨(j 0).val, hlt⟩) (fun b => by
      have hb : b = 0 := Subsingleton.elim _ _
      subst hb; rfl)]
    exact hv _
  · have hm' : (j 0).val - n < m := by omega
    rw [concatenate_pair_apply_right (t := ⟨1, ![T]⟩) (s₁ := ⟨1, ![n]⟩) (s₂ := ⟨1, ![m]⟩) (0 : Fin 1) v _ hc j rfl rfl (Shape.Idx.ofFin ⟨(j 0).val - n, hm'⟩)
      (fun b hb => absurd (Subsingleton.elim _ _) hb) (by show (j 0).val - n + n = (j 0).val; omega)]
    show (BitVec.ofNat 32 ((j 0).val - n)).toNat < B
    rw [BitVec.toNat_ofNat]
    exact lt_of_le_of_lt (Nat.mod_le _ _) (by omega)

end Cert.LibTake
-- ==== Proof.LibTakeWrap.lean ====
/-
  jnp.take along axis 0 with indices that may be negative but are in range.

  The default-mode take wraps negative indices once (an index a < 0 becomes a + N, N the table's row count), gathers
  with the wrapped indices as start indices, and replaces by a fill value every row whose wrapped index lies outside
  the table. When every index a satisfies −N ≤ a < N as a signed integer (with N below 2³¹), the wrapped index w is
  a + N for a < 0 and a otherwise, so 0 ≤ w < N in every row: both range tests pass everywhere, the row mask is all
  ones, and the whole composite is the plain gather at the wrapped indices.
-/
import Idealize.ShloMosaic.PureOps
import Idealize.ShloMosaic.Lib.StableHlo.Predicate
import proofs.«426056_j26843545600130_2_alg».proof.Proof.LibTake

namespace Cert.LibTakeWrap

open Idealize.ShloMosaic
open Idealize.ShloMosaic.StableHlo.Predicate

variable {α : Type}

/-! ## A 32-bit word read signed and unsigned -/

/-- A word that is negative as a signed integer has unsigned value 2³² more than its signed value. -/
theorem toNat_of_neg (a : BitVec 32) (h : a.toInt < 0) : (a.toNat : ℤ) = a.toInt + 2 ^ 32 := by
  have hc := BitVec.toInt_eq_toNat_cond a
  have hlt := a.isLt
  split at hc <;> omega

/-- A word that is non-negative as a signed integer has the same unsigned value. -/
theorem toNat_of_nonneg (a : BitVec 32) (h : 0 ≤ a.toInt) : (a.toNat : ℤ) = a.toInt := by
  have hc := BitVec.toInt_eq_toNat_cond a
  have hlt := a.isLt
  split at hc <;> omega

/-! ## The wrap of one index -/

/-- The signed test "a < 0" on a word, as a one-bit word, is 1 exactly when the word's signed value is negative. -/
theorem slt_zero_iff (a : BitVec 32) : IntOp.cmpi .slt a 0#32 = 1#1 ↔ a.toInt < 0 := by
  have h0 : (0#32 : BitVec 32).toInt = 0 := by decide
  unfold IntOp.cmpi
  rw [ofBool_eq_one_iff]
  simp only [BitVec.slt, h0, decide_eq_true_eq]

/-- THE WRAPPED INDEX AS A NUMBER. For a word a with −N ≤ a < N as a signed integer and N < 2³¹, the wrapped word
    (a + N when a is negative, else a) has unsigned value a + N, respectively a: the 32-bit addition a + N leaves the
    range [2³¹, 2³²) of the negative words by exactly 2³², landing in [0, N). -/
theorem wrap_word_toNat {N : Nat} (hN : N < 2 ^ 31) (a : BitVec 32) (hlo : -(N : ℤ) ≤ a.toInt) (hhi : a.toInt < N) :
    ((Scalar.select (IntOp.cmpi .slt a 0#32) (IntOp.addi a (BitVec.ofNat 32 N)) a).toNat : ℤ)
      = if a.toInt < 0 then a.toInt + N else a.toInt := by
  unfold Scalar.select
  by_cases hneg : a.toInt < 0
  · have hc : IntOp.cmpi .slt a 0#32 = 1 := (slt_zero_iff a).2 hneg
    rw [if_pos hc, if_pos hneg]
    show (((a + BitVec.ofNat 32 N).toNat : ℕ) : ℤ) = a.toInt + N
    have ha := toNat_of_neg a hneg
    rw [BitVec.toNat_add, BitVec.toNat_ofNat]
    omega
  · have hc : ¬ IntOp.cmpi .slt a 0#32 = 1 := fun hc => hneg ((slt_zero_iff a).1 hc)
    rw [if_neg hc, if_neg hneg]
    exact toNat_of_nonneg a (by omega)

/-- The wrapped word of an in-range index is a natural number below N. -/
theorem wrap_word_lt {N : Nat} (hN : N < 2 ^ 31) (a : BitVec 32) (hlo : -(N : ℤ) ≤ a.toInt) (hhi : a.toInt < N) :
    (Scalar.select (IntOp.cmpi .slt a 0#32) (IntOp.addi a (BitVec.ofNat 32 N)) a).toNat < N := by
  have hw := wrap_word_toNat hN a hlo hhi
  split at hw <;> omega

/-! ## The wrap of an index vector -/

/-- With every index in [−N, N) as a signed integer, every entry of the wrapped index vector is a natural number
    below N. -/
theorem wrap_lt {R N : Nat} (hN : N < 2 ^ 31) (idx : IVec ⟨1, ![R]⟩ 32)
    (hidx : ∀ r, -(N : ℤ) ≤ (idx r).toInt ∧ (idx r).toInt < N)
    (hz hn : (⟨0, ![]⟩ : Shape).BroadcastsInDim ⟨1, ![R]⟩ ![]) (r : (⟨1, ![R]⟩ : Shape).Idx) :
    ((select (cmpi .slt idx (broadcastInDim ⟨1, ![R]⟩ ![] hz (constantI ⟨0, ![]⟩ 32 0#32)))
      (addi idx (broadcastInDim ⟨1, ![R]⟩ ![] hn (constantI ⟨0, ![]⟩ 32 (BitVec.ofNat 32 N)))) idx) r).toNat < N := by
  show (Scalar.select (IntOp.cmpi .slt (idx r) 0#32) (IntOp.addi (idx r) (BitVec.ofNat 32 N)) (idx r)).toNat < N
  exact wrap_word_lt hN (idx r) (hidx r).1 (hidx r).2

/-! ## The take composite is the plain gather at the wrapped indices -/

/-- THE TAKE OF ROWS, NEGATIVE INDICES ALLOWED (a table whose gathered slices have C entries each; result [R, C]).
    With every index in [−N, N) as a signed integer and N < 2³¹: the wrapped index vector has every entry in [0, N), so
    the row mask — both range tests on the wrapped start-index column, reduced by `and` and broadcast along the rows of
    the result — is all ones, and the select between the gathered rows and the fill array is the gather at the wrapped
    indices kept as an [R, 1] column. The table's shape, the gather's dimension numbers and the fill array are
    arbitrary. -/
theorem take_rows_wrap_eq {R N C : Nat} {s : Shape} (hN : N < 2 ^ 31) (idx : IVec ⟨1, ![R]⟩ 32)
    (hidx : ∀ r, -(N : ℤ) ≤ (idx r).toInt ∧ (idx r).toInt < N) (d : GatherDims s ⟨2, ![R, 1]⟩ ⟨2, ![R, C]⟩)
    (x : s.Idx → α) (fill : (⟨2, ![R, C]⟩ : Shape).Idx → α)
    (hz hn : (⟨0, ![]⟩ : Shape).BroadcastsInDim ⟨1, ![R]⟩ ![])
    (hI : (⟨1, ![R]⟩ : Shape).BroadcastsInDim ⟨2, ![R, 1]⟩ ![0])
    (h0 : (⟨0, ![]⟩ : Shape).BroadcastsInDim ⟨2, ![R, 1]⟩ ![])
    (h1 : (⟨1, ![1]⟩ : Shape).BroadcastsInDim ⟨2, ![1, 1]⟩ ![1])
    (h2 : (⟨2, ![1, 1]⟩ : Shape).BroadcastsInDim ⟨2, ![R, 1]⟩ ![0, 1])
    (hr : (⟨2, ![R, 1]⟩ : Shape).ReducesTo [1] ⟨1, ![R]⟩) (hu : 0 < (⟨0, ![]⟩ : Shape).numel)
    (hm : (⟨1, ![R]⟩ : Shape).BroadcastsInDim ⟨2, ![R, C]⟩ ![0]) :
    select
      (broadcastInDim ⟨2, ![R, C]⟩ ![0] hm
        (Host.reduce IntOp.andi
          (andi
            (cmpi .sge
              (broadcastInDim ⟨2, ![R, 1]⟩ ![0] hI
                (select (cmpi .slt idx (broadcastInDim ⟨1, ![R]⟩ ![] hz (constantI ⟨0, ![]⟩ 32 0#32)))
                  (addi idx (broadcastInDim ⟨1, ![R]⟩ ![] hn (constantI ⟨0, ![]⟩ 32 (BitVec.ofNat 32 N)))) idx))
              (broadcastInDim ⟨2, ![R, 1]⟩ ![] h0 (constantI ⟨0, ![]⟩ 32 0#32)))
            (cmpi .sle
              (broadcastInDim ⟨2, ![R, 1]⟩ ![0] hI
                (select (cmpi .slt idx (broadcastInDim ⟨1, ![R]⟩ ![] hz (constantI ⟨0, ![]⟩ 32 0#32)))
                  (addi idx (broadcastInDim ⟨1, ![R]⟩ ![] hn (constantI ⟨0, ![]⟩ 32 (BitVec.ofNat 32 N)))) idx))
              (broadcastInDim ⟨2, ![R, 1]⟩ ![0, 1] h2
                (broadcastInDim ⟨2, ![1, 1]⟩ ![1] h1 (constantI ⟨1, ![1]⟩ 32 (BitVec.ofNat 32 (N - 1)))))))
          (constantI ⟨0, ![]⟩ 1 1#1) hr hu))
      (Host.gather d x
        (broadcastInDim ⟨2, ![R, 1]⟩ ![0] hI
          (select (cmpi .slt idx (broadcastInDim ⟨1, ![R]⟩ ![] hz (constantI ⟨0, ![]⟩ 32 0#32)))
            (addi idx (broadcastInDim ⟨1, ![R]⟩ ![] hn (constantI ⟨0, ![]⟩ 32 (BitVec.ofNat 32 N)))) idx)))
      fill
    = Host.gather d x
        (broadcastInDim ⟨2, ![R, 1]⟩ ![0] hI
          (select (cmpi .slt idx (broadcastInDim ⟨1, ![R]⟩ ![] hz (constantI ⟨0, ![]⟩ 32 0#32)))
            (addi idx (broadcastInDim ⟨1, ![R]⟩ ![] hn (constantI ⟨0, ![]⟩ 32 (BitVec.ofNat 32 N)))) idx)) := by
  apply Cert.LibTake.select_ones
  intro i
  exact Cert.LibTake.mask_ones hN _ (wrap_lt hN idx hidx hz hn) hI h0 h1 h2 hr hu _

end Cert.LibTakeWrap
-- ==== Proof.KernelHostDefs.lean ====
/-
  The host side of the kernel program, before the launches: the index rows, the wrap of negative indices, the
  gathered rows, and the take of rows as the program spells it (gathered rows where the wrapped index lies inside the
  table, a fill value elsewhere).
-/
import proofs.«426056_j26843545600130_2_alg».proof.Proof.Gen.KernelIdeal

noncomputable section

namespace Cert.KernelIdeal.HostV

open Cert.KernelIdeal Cert.KernelIdeal.Gen Idealize.ShloMosaic

variable {F : FTy → Type} [FloatOps F]

/-- Row 0 of a [2, 500000] index array as a vector. -/
def idxRow0 (a : IVec S2x500000 32) : IVec S500000 32 :=
  shapeCast S500000 (extractStridedSlice S1x500000 ![0, 0] a slices_S2x500000_S1x500000_0_0) shapeCasts_S1x500000_S500000
/-- Row 1 of a [2, 500000] index array as a vector. -/
def idxRow1 (a : IVec S2x500000 32) : IVec S500000 32 :=
  shapeCast S500000 (extractStridedSlice S1x500000 ![1, 0] a slices_S2x500000_S1x500000_1_0) shapeCasts_S1x500000_S500000
/-- An index vector with 100000 added to its negative entries. -/
def wrapI (idx : IVec S500000 32) : IVec S500000 32 :=
  select (cmpi .slt idx (broadcastInDim S500000 ![] bcast_S_S500000 (constantI S_ 32 0#32)))
    (addi idx (broadcastInDim S500000 ![] bcast_S_S500000 (constantI S_ 32 100000#32))) idx
/-- The wrapped index vector as a column of start indices. -/
def colI (idx : IVec S500000 32) : IVec S500000x1 32 := broadcastInDim S500000x1 ![0] bcast_S500000_S500000x1_0 (wrapI idx)
/-- The rows of a table gathered at the wrapped indices. -/
def gatherF (z : FVec F S100000x256 .f32) (idx : IVec S500000 32) : FVec F S500000x256 .f32 :=
  Host.gather gather_S100000x256_S500000x1_S500000x256_1_0_n_n_0_1_1256 z (colI idx)
/-- The take of rows as the program spells it: the gathered rows where the wrapped index lies in the table, a fill
    value elsewhere. -/
def takeF (z : FVec F S100000x256 .f32) (idx : IVec S500000 32) : FVec F S500000x256 .f32 :=
  select
    (broadcastInDim S500000x256 ![0] bcast_S500000_S500000x256_0
      (Host.reduce IntOp.andi
        (andi (cmpi .sge (colI idx) (broadcastInDim S500000x1 ![] bcast_S_S500000x1 (constantI S_ 32 0#32)))
          (cmpi .sle (colI idx) (broadcastInDim S500000x1 ![0, 1] bcast_S1x1_S500000x1_0_1
            (broadcastInDim S1x1 ![1] bcast_S1_S1x1_1 (constantI S1 32 99999#32)))))
        (constantI S_ 1 1#1) reducesTo_S500000x1_S500000_d1 h_S_))
    (gatherF z idx)
    (broadcastInDim S500000x256 ![] bcast_S_S500000x256 (constant S_ .f32 0x7FC00000#32))

end Cert.KernelIdeal.HostV

end
-- ==== Proof.KernelHostA.lean ====
/-
  What the first launch finds in its two arrays of gathered embeddings: the take of the user table at the source row of
  the first edge list, and of the item table at its destination row, each narrowed to the storage format.
-/
import proofs.«426056_j26843545600130_2_alg».proof.Proof.Gen.KernelIdeal.Frame
import proofs.«426056_j26843545600130_2_alg».proof.Proof.KernelHostDefs
import Idealize.ShloMosaic.Lib.StableHlo.Run

noncomputable section

namespace Cert.KernelIdeal.HostV

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- Contents carried to a buffer's own type and back are the contents. -/
theorem ofBuf_toBuf_a {sig : RefSig} {T : BufTy} {Val : EltTy → Type} (x : StableHlo.TRef sig T) (v : T.Contents Val) :
    x.ofBuf (x.toBuf v) = v := by
  obtain ⟨r, h, h2, h3⟩ := x
  subst h
  rfl

set_option maxRecDepth 1000000 in
set_option maxHeartbeats 8000000 in
/-- The source embeddings of the first edge list. -/
theorem V9_v9 (c : Dev nD) : V9 m ρ c main_v9
    = truncf .bf16 (takeF (m ((c.tc : Thread nD τ).loc main_arg0)) (idxRow0 (m ((c.tc : Thread nD τ).loc main_arg2)))) bitsLt_bf16_f32 := by
  dsimp only [V9, W9, W8, W7, W6, W5, W4, W3, W2, W1, W0, hostOps0, hostOps0_1, hostOps0_2, hostOps0_3, hostOps0_4, hostOps0_5, hostOps0_6, hostOps0_7, hostOps0_8]
  after_results_simp
  simp only [ofBuf_toBuf_a]
  rfl

set_option maxRecDepth 1000000 in
set_option maxHeartbeats 8000000 in
/-- The destination embeddings of the first edge list. -/
theorem V9_v11 (c : Dev nD) : V9 m ρ c main_v11
    = truncf .bf16 (takeF (m ((c.tc : Thread nD τ).loc main_arg1)) (idxRow1 (m ((c.tc : Thread nD τ).loc main_arg2)))) bitsLt_bf16_f32 := by
  dsimp only [V9, W9, W8, W7, W6, W5, W4, W3, W2, W1, W0, hostOps0, hostOps0_1, hostOps0_2, hostOps0_3, hostOps0_4, hostOps0_5, hostOps0_6, hostOps0_7, hostOps0_8]
  after_results_simp
  simp only [ofBuf_toBuf_a]
  rfl

end Cert.KernelIdeal.HostV

end
-- ==== Proof.KernelHostB.lean ====
/-
  What the second launch finds in its two arrays of gathered embeddings: the take of the item table at the source row
  of the second edge list, and of the user table at its destination row, each narrowed to the storage format.
-/
import proofs.«426056_j26843545600130_2_alg».proof.Proof.Gen.KernelIdeal.Frame
import proofs.«426056_j26843545600130_2_alg».proof.Proof.KernelHostDefs
import Idealize.ShloMosaic.Lib.StableHlo.Run

noncomputable section

namespace Cert.KernelIdeal.HostV

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- Contents carried to a buffer's own type and back are the contents. -/
theorem ofBuf_toBuf_b {sig : RefSig} {T : BufTy} {Val : EltTy → Type} (x : StableHlo.TRef sig T) (v : T.Contents Val) :
    x.ofBuf (x.toBuf v) = v := by
  obtain ⟨r, h, h2, h3⟩ := x
  subst h
  rfl

set_option maxRecDepth 1000000 in
set_option maxHeartbeats 8000000 in
/-- The source embeddings of the second edge list. -/
theorem V9_v13 (c : Dev nD) : V9 m ρ c main_v13
    = truncf .bf16 (takeF (m ((c.tc : Thread nD τ).loc main_arg1)) (idxRow0 (m ((c.tc : Thread nD τ).loc main_arg3)))) bitsLt_bf16_f32 := by
  dsimp only [V9, W9, W8, W7, W6, W5, W4, W3, W2, W1, W0, hostOps0, hostOps0_1, hostOps0_2, hostOps0_3, hostOps0_4, hostOps0_5, hostOps0_6, hostOps0_7, hostOps0_8]
  after_results_simp
  simp only [ofBuf_toBuf_b]
  rfl

set_option maxRecDepth 1000000 in
set_option maxHeartbeats 8000000 in
/-- The destination embeddings of the second edge list. -/
theorem V9_v15 (c : Dev nD) : V9 m ρ c main_v15
    = truncf .bf16 (takeF (m ((c.tc : Thread nD τ).loc main_arg0)) (idxRow1 (m ((c.tc : Thread nD τ).loc main_arg3)))) bitsLt_bf16_f32 := by
  dsimp only [V9, W9, W8, W7, W6, W5, W4, W3, W2, W1, W0, hostOps0, hostOps0_1, hostOps0_2, hostOps0_3, hostOps0_4, hostOps0_5, hostOps0_6, hostOps0_7, hostOps0_8]
  after_results_simp
  simp only [ofBuf_toBuf_b]
  rfl

end Cert.KernelIdeal.HostV

end
-- ==== Proof.KernelHostP.lean ====
/-
  What both launches find in their four parameter arrays: the stacked transposed weights narrowed to the storage
  format, the final weights as a narrowed column, the summed bias as a row, the final bias as a [1, 1] array.
-/
import proofs.«426056_j26843545600130_2_alg».proof.Proof.Gen.KernelIdeal.Frame
import proofs.«426056_j26843545600130_2_alg».proof.Proof.KernelHostDefs
import Idealize.ShloMosaic.Lib.StableHlo.Run

noncomputable section

namespace Cert.KernelIdeal.HostV

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The stacked weights: the two weight matrices transposed and joined along the rows. -/
theorem V9_v19 (c : Dev nD) : V9 m ρ c main_v19
    = truncf .bf16 (concatenate S512x256 0 [⟨S256x256, transpose S256x256 [1, 0] (m ((c.tc : Thread nD τ).loc main_arg4)) transposes_S256x256_S256x256_1_0⟩, ⟨S256x256, transpose S256x256 [1, 0] (m ((c.tc : Thread nD τ).loc main_arg6)) transposes_S256x256_S256x256_1_0⟩] concatenates_S256x256_S256x256_S512x256_d0) bitsLt_bf16_f32 := by
  dsimp only [V9, W9, W8, W7, W6, W5, W4, W3, W2, W1, W0, hostOps0, hostOps0_1, hostOps0_2, hostOps0_3, hostOps0_4, hostOps0_5, hostOps0_6, hostOps0_7, hostOps0_8]
  after_results_simp <;> rfl

/-- The final weights as a column. -/
theorem V9_v21 (c : Dev nD) : V9 m ρ c main_v21
    = truncf .bf16 (transpose S256x1 [1, 0] (m ((c.tc : Thread nD τ).loc main_arg8)) transposes_S1x256_S256x1_1_0) bitsLt_bf16_f32 := by
  dsimp only [V9, W9, W8, W7, W6, W5, W4, W3, W2, W1, W0, hostOps0, hostOps0_1, hostOps0_2, hostOps0_3, hostOps0_4, hostOps0_5, hostOps0_6, hostOps0_7, hostOps0_8]
  after_results_simp <;> rfl

/-- The summed bias as a row. -/
theorem V9_v23 (c : Dev nD) : V9 m ρ c main_v23
    = shapeCast S1x256 (addf (m ((c.tc : Thread nD τ).loc main_arg5)) (m ((c.tc : Thread nD τ).loc main_arg7))) shapeCasts_S256_S1x256 := by
  dsimp only [V9, W9, W8, W7, W6, W5, W4, W3, W2, W1, W0, hostOps0, hostOps0_1, hostOps0_2, hostOps0_3, hostOps0_4, hostOps0_5, hostOps0_6, hostOps0_7, hostOps0_8]
  after_results_simp <;> rfl

/-- The final bias as a [1, 1] array. -/
theorem V9_v24 (c : Dev nD) : V9 m ρ c main_v24
    = shapeCast S1x1 (m ((c.tc : Thread nD τ).loc main_arg9)) shapeCasts_S1_S1x1 := by
  dsimp only [V9, W9, W8, W7, W6, W5, W4, W3, W2, W1, W0, hostOps0, hostOps0_1, hostOps0_2, hostOps0_3, hostOps0_4, hostOps0_5, hostOps0_6, hostOps0_7, hostOps0_8]
  after_results_simp <;> rfl

end Cert.KernelIdeal.HostV

end
-- ==== Proof.LibPlainDot.lean ====
/-
  A plain matrix product read at an entry.

  For dimension numbers that contract the left operand's axis 1 with the right operand's axis 0, keep the
  left operand's axis 0 and the right operand's axis 1, and have no batch axes, the operand indices at the
  result entry (p, q) and contraction position k are (p, k) and (k, q). So, at the ideal values, a
  `tpu.matmul` into the zero accumulator is the textbook sum  ∑ k, l (p, k) * r (k, q)  over the
  extended reals. Stated for ANY record with those six lists (each equation is `rfl` at a printed record),
  at any extents and element formats.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = [])
    (hrb : d.rhsBatch = []) (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- A `tpu.matmul` of such a record into the zero accumulator, at the ideal values and at entry (p, q): the sum
    over the contraction positions of the products of the left operand's row p and the right operand's column q. -/
theorem matmul_zero_apply {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (p : Fin M) (q : Fin N) :
    FloatOps.matmul d prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 k q := funext fun a => Fin.ext (by
    match a with
    | ⟨0, _⟩ => exact (rhs_row d hrc _ _).trans hk
    | ⟨1, _⟩ => exact rhs_col d hln hrn hlb hrb _ _)
  rw [el, er]

/-- The same at any index of the result, its two coordinates read off it. -/
theorem matmul_zero_apply_at {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (y : (⟨2, ![M, N]⟩ : Shape).Idx) :
    FloatOps.matmul d prec l r (constant (F := Ideal) ⟨2, ![M, N]⟩ .f32 0x00000000#32) y
      = ∑ k : Fin K, l (ix2 ⟨(y 0).val, (y 0).isLt⟩ k) * r (ix2 k ⟨(y 1).val, (y 1).isLt⟩) :=
  (congrArg (FloatOps.matmul d prec l r (constant (F := Ideal) ⟨2, ![M, N]⟩ .f32 0x00000000#32)) (eq_ix2 y)).trans
    (matmul_zero_apply d hlc hrc hln hrn hlb hrb hr hs prec l r (y 0) (y 1))

end Idealize.ShloMosaic.PlainDot

end
-- ==== Proof.KernelBody.lean ====
/-
  The kernel body's arithmetic read at an entry.

  One block of the launch holds 10000 edges. For edge p of the block the body joins the source row and the
  destination row (256 entries each) into one row x of 512 entries, multiplies it into the stacked weights wc
  [512, 256], adds the bias row b, clamps below at zero, multiplies the hidden row into the final column wf
  [256, 1], adds the final bias bf and applies the logistic function:
      σ( Σ_j max( Σ_k x_k · wc[k, j] + b_j , 0 ) · wf_j + bf ).
  At the ideal values every product into a zero accumulator is the plain finite sum, a change of format is the
  identity, and the zero literal is the extended real 0; so the entry (p, 0) of the body's value is the joined
  arrangement of the score, Cert.Spec.rowK, at the rows p of the two blocks.
-/
import proofs.«426056_j26843545600130_2_alg».proof.Proof.Gen.KernelIdeal.Skeleton
import proofs.«426056_j26843545600130_2_alg».proof.Proof.Spec
import proofs.«426056_j26843545600130_2_alg».proof.Proof.LibPlainDot
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-! ## The operations that move entries -/

/-- Two blocks of 256 columns set side by side, read at row p and column k of the 512: the joined row. -/
theorem concat_apply (x₁ x₂ : S10000x256.Idx → EReal)
    (h : Shape.Concatenates [S10000x256, S10000x256] S10000x512 1) (p : Fin 10000) (k : Fin 512) :
    concatenate S10000x512 1 [⟨S10000x256, x₁⟩, ⟨S10000x256, x₂⟩] h (ix2 p k)
      = Cert.Spec.join (fun k => x₁ (ix2 p k)) (fun k => x₂ (ix2 p k)) k := by
  unfold Cert.Spec.join
  by_cases hk : k.val < 256
  · rw [dif_pos hk]
    refine concatenate_pair_apply_left (1 : Fin S10000x512.rank) x₁ x₂ h (ix2 p k) rfl (ix2 p ⟨k.val, hk⟩) fun b => ?_
    match b with
    | ⟨0, _⟩ => rfl
    | ⟨1, _⟩ => rfl
  · rw [dif_neg hk]
    refine concatenate_pair_apply_right (1 : Fin S10000x512.rank) x₁ x₂ h (ix2 p k) rfl rfl
      (ix2 p ⟨k.val - 256, by have := k.isLt; omega⟩) (fun b hb => ?_) ?_
    · match b with
      | ⟨0, _⟩ => rfl
      | ⟨1, _⟩ => exact absurd rfl hb
    · show k.val - 256 + 256 = k.val
      omega

/-- The same with each block first cast to its own shape, which changes nothing. -/
theorem joined_apply (x₁ x₂ : S10000x256.Idx → EReal) (hc : S10000x256.ShapeCasts S10000x256)
    (h : Shape.Concatenates [S10000x256, S10000x256] S10000x512 1) (p : Fin 10000) (k : Fin 512) :
    concatenate S10000x512 1 [⟨S10000x256, shapeCast S10000x256 x₁ hc⟩, ⟨S10000x256, shapeCast S10000x256 x₂ hc⟩] h (ix2 p k)
      = Cert.Spec.join (fun k => x₁ (ix2 p k)) (fun k => x₂ (ix2 p k)) k := by
  rw [shapeCast_self x₁ hc, shapeCast_self x₂ hc]
  exact concat_apply x₁ x₂ h p k

/-- A row of 256 entries repeated down 10000 rows, read at (p, j): its entry j. -/
theorem bcast_row_apply (b : S1x256.Idx → EReal) (h : S1x256.Broadcasts S10000x256) (p : Fin 10000) (j : Fin 256) :
    broadcastTo S10000x256 b h (ix2 p j) = b (ix2 (0 : Fin 1) j) := by
  refine broadcastTo_apply b h (ix2 p j) (ix2 (0 : Fin 1) j) fun a => ?_
  match a with
  | ⟨0, _⟩ => rfl
  | ⟨1, _⟩ => rfl

/-- One number repeated down 10000 rows of one column, read at (p, 0): that number. -/
theorem bcast_one_apply (b : S1x1.Idx → EReal) (h : S1x1.Broadcasts S10000x1) (p : Fin 10000) :
    broadcastTo S10000x1 b h (ix2 p (0 : Fin 1)) = b (ix2 (0 : Fin 1) (0 : Fin 1)) := by
  refine broadcastTo_apply b h (ix2 p (0 : Fin 1)) (ix2 (0 : Fin 1) (0 : Fin 1)) fun a => ?_
  match a with
  | ⟨0, _⟩ => rfl
  | ⟨1, _⟩ => rfl

/-! ## The two layers -/

/-- The hidden layer at (p, j): the joined row p times column j of the stacked weights, plus the bias entry j,
    clamped below at zero. -/
theorem hidden_apply (x : FVec Ideal S10000x512 .bf16) (w : FVec Ideal S512x256 .bf16) (b : FVec Ideal S1x256 .f32)
    (hb : S1x256.Broadcasts S10000x256) (hlt : FTy.bits .bf16 < FTy.bits .f32) (p : Fin 10000) (j : Fin 256) :
    (truncf .bf16 (maximumf (addf (matmul dot_S10000x512_S512x256_S10000x256_1_0_0_1_n_n none x w
        (constant S10000x256 .f32 0x00000000#32)) (broadcastTo S10000x256 b hb))
        (broadcast S10000x256 (Scalar.ofBits .f32 0x00000000#32))) hlt : FVec Ideal S10000x256 .bf16) (ix2 p j)
      = max ((∑ k : Fin 512, x (ix2 p k) * w (ix2 k j)) + b (ix2 (0 : Fin 1) j)) 0 := by
  rw [truncf_apply, maximumf_apply, addf_apply, broadcast_apply, bcast_row_apply]
  refine congrArg₂ max (congrArg (· + _) ?_) Ideal.ofBits_zero_f32
  exact PlainDot.matmul_zero_apply _ rfl rfl rfl rfl rfl rfl rfl rfl none x w p j

/-- The output layer at (p, 0): the hidden row p times the final column, plus the final bias, through the logistic
    function. -/
theorem out_apply (y : FVec Ideal S10000x256 .bf16) (w : FVec Ideal S256x1 .bf16) (b : FVec Ideal S1x1 .f32)
    (hb : S1x1.Broadcasts S10000x1) (p : Fin 10000) :
    (logistic (addf (matmul dot_S10000x256_S256x1_S10000x1_1_0_0_1_n_n none y w
        (constant S10000x1 .f32 0x00000000#32)) (broadcastTo S10000x1 b hb)) : FVec Ideal S10000x1 .f32) (ix2 p (0 : Fin 1))
      = Ideal.logistic ((∑ j : Fin 256, y (ix2 p j) * w (ix2 j (0 : Fin 1))) + b (ix2 (0 : Fin 1) (0 : Fin 1))) := by
  show Ideal.logistic (_ + _) = _
  rw [bcast_one_apply]
  exact congrArg (fun t => Ideal.logistic (t + _))
    (PlainDot.matmul_zero_apply _ rfl rfl rfl rfl rfl rfl rfl rfl none y w p (0 : Fin 1))

/-! ## The body -/

/-- The first launch's body at row p: the joined arrangement of the score of edge p of the block. -/
theorem pay0_apply (v0 v2 : Vec Ideal S10000x256 .bf16) (v5 : Vec Ideal S512x256 .bf16) (v8 : Vec Ideal S1x256 .f32)
    (v15 : Vec Ideal S256x1 .bf16) (v18 : Vec Ideal S1x1 .f32) (p : Fin 10000) :
    k0_pay1 (F := Ideal) v0 v2 v5 v8 v15 v18 (ix2 p (0 : Fin 1))
      = Cert.Spec.rowK (Cert.Spec.join (fun k => v0 (ix2 p k)) (fun k => v2 (ix2 p k))) (fun k j => v5 (ix2 k j))
          (fun j => v8 (ix2 (0 : Fin 1) j)) (fun j => v15 (ix2 j (0 : Fin 1))) (v18 (ix2 (0 : Fin 1) (0 : Fin 1))) := by
  unfold k0_pay1 Cert.Spec.rowK
  simp only [shapeCast_self]
  refine (out_apply _ v15 v18 _ p).trans ?_
  refine congrArg (fun t => Ideal.logistic (t + _)) (Finset.sum_congr rfl fun j _ => ?_)
  refine congrArg (· * _) ?_
  refine (hidden_apply _ v5 v8 _ _ p j).trans ?_
  refine congrArg (fun t => max (t + _) 0) (Finset.sum_congr rfl fun k _ => ?_)
  exact congrArg (· * _) (joined_apply v0 v2 _ _ p k)

/-- The second launch's body is the same text: the same reading. -/
theorem pay1_apply (v0 v2 : Vec Ideal S10000x256 .bf16) (v5 : Vec Ideal S512x256 .bf16) (v8 : Vec Ideal S1x256 .f32)
    (v15 : Vec Ideal S256x1 .bf16) (v18 : Vec Ideal S1x1 .f32) (p : Fin 10000) :
    k1_pay1 (F := Ideal) v0 v2 v5 v8 v15 v18 (ix2 p (0 : Fin 1))
      = Cert.Spec.rowK (Cert.Spec.join (fun k => v0 (ix2 p k)) (fun k => v2 (ix2 p k))) (fun k j => v5 (ix2 k j))
          (fun j => v8 (ix2 (0 : Fin 1) j)) (fun j => v15 (ix2 j (0 : Fin 1))) (v18 (ix2 (0 : Fin 1) (0 : Fin 1))) :=
  pay0_apply v0 v2 v5 v8 v15 v18 p

end Cert.KernelIdeal.Body

end
-- ==== Proof.KernelBlocks.lean ====
/-
  From blocks to arrays, for both launches.

  Each launch walks 50 grid points.  At point t it holds rows 10000·t … 10000·t + 9999 of the two arrays of gathered
  embeddings, the whole stacked weights [512, 256], the whole summed bias [1, 256], the whole final column [256, 1] and
  the final bias [1, 1], and writes back rows 10000·t … 10000·t + 9999 of the score column [500000, 1].  Row p of what
  it writes is the score, in the joined arrangement, of row p of its two embedding blocks; that row is row 10000·t + p of
  the gathered arrays, so the block written at t is block t of ONE function of the whole arrays: the scores of all
  500000 edges.  Row r lies in the block of point r / 10000, so the blocks cover the column, and after the launch the
  column holds the score of every edge.
-/
import proofs.«426056_j26843545600130_2_alg».proof.Proof.Gen.KernelIdeal.Frame
import proofs.«426056_j26843545600130_2_alg».proof.Proof.Spec
import proofs.«426056_j26843545600130_2_alg».proof.Proof.KernelBody
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, in the two spellings. -/
theorem zero_offsets : (![0, 0] : Fin 2 → Nat) = fun _ => 0 := funext fun a => by fin_cases a <;> rfl

/-! ## The first edge type -/

/-- The block index of every window at every grid point, decided over the 50 points: the two embedding windows
    and the score window move one block of 10000 rows per point; the four parameter windows stay at block 0. -/
theorem block_indices0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row x of the source-embedding block at point t is row 10000·t + x of the gathered source embeddings. -/
theorem src_block0 (c : Dev nD) (t : Fin cfg0.N) (x : S10000x256.Idx) (k : S500000x256.Idx)
    (hk0 : (k 0).val = t.val * 10000 + (x 0).val) (hk1 : (k 1).val = (x 1).val) :
    (iblk0 V c 0 t : Vec Ideal S10000x256 .bf16) x = (V c main_v9 : Vec Ideal S500000x256 .bf16) k := by
  obtain ⟨e0, e1, -⟩ := block_indices0 t
  unfold iblk0
  rw [View.read_apply]
  show V c main_v9 _ = V c main_v9 _
  refine congrArg (V c main_v9) (funext fun a => Fin.ext ?_)
  match a with
  | ⟨0, _⟩ => show win0_0.index t (0 : Fin 2) * 10000 + 1 * (x 0).val = (k 0).val; rw [e0, hk0]; omega
  | ⟨1, _⟩ => show win0_0.index t (1 : Fin 2) * 256 + 1 * (x 1).val = (k 1).val; rw [e1, hk1]; omega

/-- Row x of the destination-embedding block at point t is row 10000·t + x of the gathered destination embeddings. -/
theorem dst_block0 (c : Dev nD) (t : Fin cfg0.N) (x : S10000x256.Idx) (k : S500000x256.Idx)
    (hk0 : (k 0).val = t.val * 10000 + (x 0).val) (hk1 : (k 1).val = (x 1).val) :
    (iblk0 V c 1 t : Vec Ideal S10000x256 .bf16) x = (V c main_v11 : Vec Ideal S500000x256 .bf16) k := by
  obtain ⟨-, -, e0, e1, -⟩ := block_indices0 t
  unfold iblk0
  rw [View.read_apply]
  show V c main_v11 _ = V c main_v11 _
  refine congrArg (V c main_v11) (funext fun a => Fin.ext ?_)
  match a with
  | ⟨0, _⟩ => show win0_1.index t (0 : Fin 2) * 10000 + 1 * (x 0).val = (k 0).val; rw [e0, hk0]; omega
  | ⟨1, _⟩ => show win0_1.index t (1 : Fin 2) * 256 + 1 * (x 1).val = (k 1).val; rw [e1, hk1]; omega

/-- The stacked-weights window holds the whole [512, 256] array at every point. -/
theorem wcat_block0 (c : Dev nD) (t : Fin cfg0.N) (x : S512x256.Idx) :
    (iblk0 V c 2 t : Vec Ideal S512x256 .bf16) x = (V c main_v19 : Vec Ideal S512x256 .bf16) x := by
  obtain ⟨-, -, -, -, e0, e1, -⟩ := block_indices0 t
  unfold iblk0
  rw [View.read_apply]
  show V c main_v19 _ = V c main_v19 _
  refine congrArg (V c main_v19) (funext fun a => Fin.ext ?_)
  match a with
  | ⟨0, _⟩ => show win0_2.index t (0 : Fin 2) * 512 + 1 * (x 0).val = (x 0).val; rw [e0]; omega
  | ⟨1, _⟩ => show win0_2.index t (1 : Fin 2) * 256 + 1 * (x 1).val = (x 1).val; rw [e1]; omega

/-- The final-weights window holds the whole [256, 1] column at every point. -/
theorem wfin_block0 (c : Dev nD) (t : Fin cfg0.N) (x : S256x1.Idx) :
    (iblk0 V c 3 t : Vec Ideal S256x1 .bf16) x = (V c main_v21 : Vec Ideal S256x1 .bf16) x := by
  obtain ⟨-, -, -, -, -, -, e0, e1, -⟩ := block_indices0 t
  unfold iblk0
  rw [View.read_apply]
  show V c main_v21 _ = V c main_v21 _
  refine congrArg (V c main_v21) (funext fun a => Fin.ext ?_)
  match a with
  | ⟨0, _⟩ => show win0_3.index t (0 : Fin 2) * 256 + 1 * (x 0).val = (x 0).val; rw [e0]; omega
  | ⟨1, _⟩ => show win0_3.index t (1 : Fin 2) * 1 + 1 * (x 1).val = (x 1).val; rw [e1]; omega

/-- The summed-bias window holds the whole [1, 256] row at every point. -/
theorem bsum_block0 (c : Dev nD) (t : Fin cfg0.N) (x : S1x256.Idx) :
    (iblk0 V c 4 t : Vec Ideal S1x256 .f32) x = (V c main_v23 : Vec Ideal S1x256 .f32) x := by
  obtain ⟨-, -, -, -, -, -, -, -, e0, e1, -⟩ := block_indices0 t
  unfold iblk0
  rw [View.read_apply]
  show V c main_v23 _ = V c main_v23 _
  refine congrArg (V c main_v23) (funext fun a => Fin.ext ?_)
  match a with
  | ⟨0, _⟩ => show win0_4.index t (0 : Fin 2) * 1 + 1 * (x 0).val = (x 0).val; rw [e0]; omega
  | ⟨1, _⟩ => show win0_4.index t (1 : Fin 2) * 256 + 1 * (x 1).val = (x 1).val; rw [e1]; omega

/-- The final-bias window holds the [1, 1] array at every point. -/
theorem bfin_block0 (c : Dev nD) (t : Fin cfg0.N) (x : S1x1.Idx) :
    (iblk0 V c 5 t : Vec Ideal S1x1 .f32) x = (V c main_v24 : Vec Ideal S1x1 .f32) x := by
  obtain ⟨-, -, -, -, -, -, -, -, -, -, e0, e1, -⟩ := block_indices0 t
  unfold iblk0
  rw [View.read_apply]
  show V c main_v24 _ = V c main_v24 _
  refine congrArg (V c main_v24) (funext fun a => Fin.ext ?_)
  match a with
  | ⟨0, _⟩ => show win0_5.index t (0 : Fin 2) * 1 + 1 * (x 0).val = (x 0).val; rw [e0]; omega
  | ⟨1, _⟩ => show win0_5.index t (1 : Fin 2) * 1 + 1 * (x 1).val = (x 1).val; rw [e1]; omega

/-- The score the body computes for row p of its blocks is the score of edge i of the whole arrays, when row p of
    the two embedding blocks is row i of the two gathered arrays and the parameter blocks are the parameter arrays. -/
theorem score_row0 (x0 x1 : Vec Ideal S10000x256 .bf16) (w : Vec Ideal S512x256 .bf16) (b : Vec Ideal S1x256 .f32)
    (f : Vec Ideal S256x1 .bf16) (g : Vec Ideal S1x1 .f32)
    (A0 A1 : Vec Ideal S500000x256 .bf16) (Aw : Vec Ideal S512x256 .bf16) (Ab : Vec Ideal S1x256 .f32)
    (Af : Vec Ideal S256x1 .bf16) (Ag : Vec Ideal S1x1 .f32)
    (p : Fin 10000) (i : S500000x1.Idx)
    (h0 : ∀ k : Fin 256, x0 (ix2 p k) = A0 (ix2 (Cert.Spec.rowOf i) k))
    (h1 : ∀ k : Fin 256, x1 (ix2 p k) = A1 (ix2 (Cert.Spec.rowOf i) k))
    (hw : ∀ (k : Fin 512) (j : Fin 256), w (ix2 k j) = Aw (ix2 k j))
    (hb : ∀ j : Fin 256, b (ix2 (0 : Fin 1) j) = Ab (ix2 (0 : Fin 1) j))
    (hf : ∀ j : Fin 256, f (ix2 j (0 : Fin 1)) = Af (ix2 j (0 : Fin 1)))
    (hg : g (ix2 (0 : Fin 1) (0 : Fin 1)) = Ag (ix2 (0 : Fin 1) (0 : Fin 1))) :
    k0_pay1 (F := Ideal) x0 x1 w b f g (ix2 p (0 : Fin 1)) = Cert.Spec.scoreArrK A0 A1 Aw Ab Af Ag i := by
  rw [Cert.KernelIdeal.Body.pay0_apply]
  unfold Cert.Spec.scoreArrK
  exact congr (congr (congr (congr (congrArg Cert.Spec.rowK
    (congr (congrArg Cert.Spec.join (funext h0)) (funext h1)))
    (funext fun k => funext fun j => hw k j)) (funext hb)) (funext hf)) hg

/-- What point t writes back is block t of the scores of all 500000 edges. -/
theorem flushed0 (c : Dev nD) (t : Fin cfg0.N) :
    (dat0 (F := Ideal) V c).flushed 6 t = ((cfg0.win 6).blk t).view.read (Elt Ideal)
      (Cert.Spec.scoreArrK (V c main_v9) (V c main_v11) (V c main_v19) (V c main_v23) (V c main_v21) (V c main_v24)) := by
  show (cfg0.win 6).cut (grid0.coords t) ((dat0 V c).after 6 t) = _
  rw [after0_6]
  unfold out0_6
  rw [View.canon_unit_zero zero_offsets]
  simp only [View.ld_unit_zero (S := S10000x256) zero_offsets, View.ld_unit_zero (S := S512x256) zero_offsets,
    View.ld_unit_zero (S := S1x256) zero_offsets, View.ld_unit_zero (S := S256x1) zero_offsets,
    View.ld_unit_zero (S := S1x1) zero_offsets]
  funext j
  obtain ⟨p, q, rfl⟩ : ∃ (p : Fin 10000) (q : Fin 1), j = ix2 p q := ⟨j 0, j 1, eq_ix2 j⟩
  obtain rfl : q = 0 := Subsingleton.elim q 0
  obtain ⟨-, -, -, -, -, -, -, -, -, -, -, -, e0, e1⟩ := block_indices0 t
  show k0_pay1 (F := Ideal) (iblk0 V c 0 t) (iblk0 V c 1 t) (iblk0 V c 2 t) (iblk0 V c 4 t) (iblk0 V c 3 t) (iblk0 V c 5 t) (ix2 p (0 : Fin 1))
    = Cert.Spec.scoreArrK (V c main_v9) (V c main_v11) (V c main_v19) (V c main_v23) (V c main_v21) (V c main_v24)
        (((cfg0.win 6).blk t).view.emb (ix2 p (0 : Fin 1)))
  have hrow : ((Cert.Spec.rowOf (((cfg0.win 6).blk t).view.emb (ix2 p (0 : Fin 1)))) : Fin 500000).val = t.val * 10000 + p.val := by
    show win0_6.index t (0 : Fin 2) * 10000 + 1 * p.val = _
    rw [e0]; omega
  refine score_row0 (iblk0 V c 0 t) (iblk0 V c 1 t) (iblk0 V c 2 t) (iblk0 V c 4 t) (iblk0 V c 3 t) (iblk0 V c 5 t)
    (V c main_v9) (V c main_v11) (V c main_v19) (V c main_v23) (V c main_v21) (V c main_v24) p
    (((cfg0.win 6).blk t).view.emb (ix2 p (0 : Fin 1))) ?_ ?_ ?_ ?_ ?_ ?_
  · exact fun k => src_block0 V c t (ix2 p k) _ hrow rfl
  · exact fun k => dst_block0 V c t (ix2 p k) _ hrow rfl
  · exact fun k j => wcat_block0 V c t (ix2 k j)
  · exact fun j => bsum_block0 V c t (ix2 (0 : Fin 1) j)
  · exact fun j => wfin_block0 V c t (ix2 j (0 : Fin 1))
  · exact bfin_block0 V c t (ix2 (0 : Fin 1) (0 : Fin 1))

/-- An edge's entry is in point t's block iff its row is among the 10000 rows of that block. -/
theorem mem_block0 (t : Fin cfg0.N) (i : S500000x1.Idx) :
    i ∈ ((cfg0.win 6).blk t).view.set ↔ ∀ a : Fin 2, win0_6.index t a * S10000x1.size a ≤ (i a).val ∧ (i a).val < win0_6.index t a * S10000x1.size a + S10000x1.size a := by
  show i ∈ ((View.whole main_v25).slice (win0_6.rect t)).set ↔ _
  rw [View.set_slice_whole, Rect.mem_set_unit]
  exact Iff.rfl

/-- Every edge is in some point's block: row r is in block r / 10000. -/
theorem cover0 (i : S500000x1.Idx) :
    ∃ t : Fin cfg0.N, (cfg0.win 6).flush t = true ∧ i ∈ ((cfg0.win 6).blk t).view.set := by
  have hi0 : (i 0).val < 500000 := (i 0).isLt
  have hi1 : (i 1).val < 1 := (i 1).isLt
  have hN : cfg0.N = 50 := N_0
  refine ⟨⟨(i 0).val / 10000, by rw [hN]; omega⟩, flush0_6 _, ?_⟩
  obtain ⟨-, -, -, -, -, -, -, -, -, -, -, -, e0, e1⟩ := block_indices0 ⟨(i 0).val / 10000, by rw [hN]; omega⟩
  rw [mem_block0]
  intro a
  match a with
  | ⟨0, _⟩ =>
    show win0_6.index _ (0 : Fin 2) * 10000 ≤ (i 0).val ∧ (i 0).val < win0_6.index _ (0 : Fin 2) * 10000 + 10000
    rw [e0]
    show (i 0).val / 10000 * 10000 ≤ (i 0).val ∧ (i 0).val < (i 0).val / 10000 * 10000 + 10000
    omega
  | ⟨1, _⟩ =>
    show win0_6.index _ (1 : Fin 2) * 1 ≤ (i 1).val ∧ (i 1).val < win0_6.index _ (1 : Fin 2) * 1 + 1
    rw [e1]
    omega

/-- After the launch the score array holds the score of every edge. -/
theorem arr0 (c : Dev nD) :
    (dat0 (F := Ideal) V c).arrAt 6 cfg0.N
      = Cert.Spec.scoreArrK (V c main_v9) (V c main_v11) (V c main_v19) (V c main_v23) (V c main_v21) (V c main_v24) :=
  (dat0 (F := Ideal) V c).arrAt_eq_of_cover 6 _ (fun t _ => flushed0 V c t) cover0

/-! ## The second edge type -/

/-- The block index of every window at every grid point, decided over the 50 points: the two embedding windows
    and the score window move one block of 10000 rows per point; the four parameter windows stay at block 0. -/
theorem block_indices1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row x of the source-embedding block at point t is row 10000·t + x of the gathered source embeddings. -/
theorem src_block1 (c : Dev nD) (t : Fin cfg1.N) (x : S10000x256.Idx) (k : S500000x256.Idx)
    (hk0 : (k 0).val = t.val * 10000 + (x 0).val) (hk1 : (k 1).val = (x 1).val) :
    (iblk1 V c 0 t : Vec Ideal S10000x256 .bf16) x = (V c main_v13 : Vec Ideal S500000x256 .bf16) k := by
  obtain ⟨e0, e1, -⟩ := block_indices1 t
  unfold iblk1
  rw [View.read_apply]
  show V c main_v13 _ = V c main_v13 _
  refine congrArg (V c main_v13) (funext fun a => Fin.ext ?_)
  match a with
  | ⟨0, _⟩ => show win1_0.index t (0 : Fin 2) * 10000 + 1 * (x 0).val = (k 0).val; rw [e0, hk0]; omega
  | ⟨1, _⟩ => show win1_0.index t (1 : Fin 2) * 256 + 1 * (x 1).val = (k 1).val; rw [e1, hk1]; omega

/-- Row x of the destination-embedding block at point t is row 10000·t + x of the gathered destination embeddings. -/
theorem dst_block1 (c : Dev nD) (t : Fin cfg1.N) (x : S10000x256.Idx) (k : S500000x256.Idx)
    (hk0 : (k 0).val = t.val * 10000 + (x 0).val) (hk1 : (k 1).val = (x 1).val) :
    (iblk1 V c 1 t : Vec Ideal S10000x256 .bf16) x = (V c main_v15 : Vec Ideal S500000x256 .bf16) k := by
  obtain ⟨-, -, e0, e1, -⟩ := block_indices1 t
  unfold iblk1
  rw [View.read_apply]
  show V c main_v15 _ = V c main_v15 _
  refine congrArg (V c main_v15) (funext fun a => Fin.ext ?_)
  match a with
  | ⟨0, _⟩ => show win1_1.index t (0 : Fin 2) * 10000 + 1 * (x 0).val = (k 0).val; rw [e0, hk0]; omega
  | ⟨1, _⟩ => show win1_1.index t (1 : Fin 2) * 256 + 1 * (x 1).val = (k 1).val; rw [e1, hk1]; omega

/-- The stacked-weights window holds the whole [512, 256] array at every point. -/
theorem wcat_block1 (c : Dev nD) (t : Fin cfg1.N) (x : S512x256.Idx) :
    (iblk1 V c 2 t : Vec Ideal S512x256 .bf16) x = (V c main_v19 : Vec Ideal S512x256 .bf16) x := by
  obtain ⟨-, -, -, -, e0, e1, -⟩ := block_indices1 t
  unfold iblk1
  rw [View.read_apply]
  show V c main_v19 _ = V c main_v19 _
  refine congrArg (V c main_v19) (funext fun a => Fin.ext ?_)
  match a with
  | ⟨0, _⟩ => show win1_2.index t (0 : Fin 2) * 512 + 1 * (x 0).val = (x 0).val; rw [e0]; omega
  | ⟨1, _⟩ => show win1_2.index t (1 : Fin 2) * 256 + 1 * (x 1).val = (x 1).val; rw [e1]; omega

/-- The final-weights window holds the whole [256, 1] column at every point. -/
theorem wfin_block1 (c : Dev nD) (t : Fin cfg1.N) (x : S256x1.Idx) :
    (iblk1 V c 3 t : Vec Ideal S256x1 .bf16) x = (V c main_v21 : Vec Ideal S256x1 .bf16) x := by
  obtain ⟨-, -, -, -, -, -, e0, e1, -⟩ := block_indices1 t
  unfold iblk1
  rw [View.read_apply]
  show V c main_v21 _ = V c main_v21 _
  refine congrArg (V c main_v21) (funext fun a => Fin.ext ?_)
  match a with
  | ⟨0, _⟩ => show win1_3.index t (0 : Fin 2) * 256 + 1 * (x 0).val = (x 0).val; rw [e0]; omega
  | ⟨1, _⟩ => show win1_3.index t (1 : Fin 2) * 1 + 1 * (x 1).val = (x 1).val; rw [e1]; omega

/-- The summed-bias window holds the whole [1, 256] row at every point. -/
theorem bsum_block1 (c : Dev nD) (t : Fin cfg1.N) (x : S1x256.Idx) :
    (iblk1 V c 4 t : Vec Ideal S1x256 .f32) x = (V c main_v23 : Vec Ideal S1x256 .f32) x := by
  obtain ⟨-, -, -, -, -, -, -, -, e0, e1, -⟩ := block_indices1 t
  unfold iblk1
  rw [View.read_apply]
  show V c main_v23 _ = V c main_v23 _
  refine congrArg (V c main_v23) (funext fun a => Fin.ext ?_)
  match a with
  | ⟨0, _⟩ => show win1_4.index t (0 : Fin 2) * 1 + 1 * (x 0).val = (x 0).val; rw [e0]; omega
  | ⟨1, _⟩ => show win1_4.index t (1 : Fin 2) * 256 + 1 * (x 1).val = (x 1).val; rw [e1]; omega

/-- The final-bias window holds the [1, 1] array at every point. -/
theorem bfin_block1 (c : Dev nD) (t : Fin cfg1.N) (x : S1x1.Idx) :
    (iblk1 V c 5 t : Vec Ideal S1x1 .f32) x = (V c main_v24 : Vec Ideal S1x1 .f32) x := by
  obtain ⟨-, -, -, -, -, -, -, -, -, -, e0, e1, -⟩ := block_indices1 t
  unfold iblk1
  rw [View.read_apply]
  show V c main_v24 _ = V c main_v24 _
  refine congrArg (V c main_v24) (funext fun a => Fin.ext ?_)
  match a with
  | ⟨0, _⟩ => show win1_5.index t (0 : Fin 2) * 1 + 1 * (x 0).val = (x 0).val; rw [e0]; omega
  | ⟨1, _⟩ => show win1_5.index t (1 : Fin 2) * 1 + 1 * (x 1).val = (x 1).val; rw [e1]; omega

/-- The score the body computes for row p of its blocks is the score of edge i of the whole arrays, when row p of
    the two embedding blocks is row i of the two gathered arrays and the parameter blocks are the parameter arrays. -/
theorem score_row1 (x0 x1 : Vec Ideal S10000x256 .bf16) (w : Vec Ideal S512x256 .bf16) (b : Vec Ideal S1x256 .f32)
    (f : Vec Ideal S256x1 .bf16) (g : Vec Ideal S1x1 .f32)
    (A0 A1 : Vec Ideal S500000x256 .bf16) (Aw : Vec Ideal S512x256 .bf16) (Ab : Vec Ideal S1x256 .f32)
    (Af : Vec Ideal S256x1 .bf16) (Ag : Vec Ideal S1x1 .f32)
    (p : Fin 10000) (i : S500000x1.Idx)
    (h0 : ∀ k : Fin 256, x0 (ix2 p k) = A0 (ix2 (Cert.Spec.rowOf i) k))
    (h1 : ∀ k : Fin 256, x1 (ix2 p k) = A1 (ix2 (Cert.Spec.rowOf i) k))
    (hw : ∀ (k : Fin 512) (j : Fin 256), w (ix2 k j) = Aw (ix2 k j))
    (hb : ∀ j : Fin 256, b (ix2 (0 : Fin 1) j) = Ab (ix2 (0 : Fin 1) j))
    (hf : ∀ j : Fin 256, f (ix2 j (0 : Fin 1)) = Af (ix2 j (0 : Fin 1)))
    (hg : g (ix2 (0 : Fin 1) (0 : Fin 1)) = Ag (ix2 (0 : Fin 1) (0 : Fin 1))) :
    k1_pay1 (F := Ideal) x0 x1 w b f g (ix2 p (0 : Fin 1)) = Cert.Spec.scoreArrK A0 A1 Aw Ab Af Ag i := by
  rw [Cert.KernelIdeal.Body.pay1_apply]
  unfold Cert.Spec.scoreArrK
  exact congr (congr (congr (congr (congrArg Cert.Spec.rowK
    (congr (congrArg Cert.Spec.join (funext h0)) (funext h1)))
    (funext fun k => funext fun j => hw k j)) (funext hb)) (funext hf)) hg

/-- What point t writes back is block t of the scores of all 500000 edges. -/
theorem flushed1 (c : Dev nD) (t : Fin cfg1.N) :
    (dat1 (F := Ideal) V c).flushed 6 t = ((cfg1.win 6).blk t).view.read (Elt Ideal)
      (Cert.Spec.scoreArrK (V c main_v13) (V c main_v15) (V c main_v19) (V c main_v23) (V c main_v21) (V c main_v24)) := by
  show (cfg1.win 6).cut (grid1.coords t) ((dat1 V c).after 6 t) = _
  rw [after1_6]
  unfold out1_6
  rw [View.canon_unit_zero zero_offsets]
  simp only [View.ld_unit_zero (S := S10000x256) zero_offsets, View.ld_unit_zero (S := S512x256) zero_offsets,
    View.ld_unit_zero (S := S1x256) zero_offsets, View.ld_unit_zero (S := S256x1) zero_offsets,
    View.ld_unit_zero (S := S1x1) zero_offsets]
  funext j
  obtain ⟨p, q, rfl⟩ : ∃ (p : Fin 10000) (q : Fin 1), j = ix2 p q := ⟨j 0, j 1, eq_ix2 j⟩
  obtain rfl : q = 0 := Subsingleton.elim q 0
  obtain ⟨-, -, -, -, -, -, -, -, -, -, -, -, e0, e1⟩ := block_indices1 t
  show k1_pay1 (F := Ideal) (iblk1 V c 0 t) (iblk1 V c 1 t) (iblk1 V c 2 t) (iblk1 V c 4 t) (iblk1 V c 3 t) (iblk1 V c 5 t) (ix2 p (0 : Fin 1))
    = Cert.Spec.scoreArrK (V c main_v13) (V c main_v15) (V c main_v19) (V c main_v23) (V c main_v21) (V c main_v24)
        (((cfg1.win 6).blk t).view.emb (ix2 p (0 : Fin 1)))
  have hrow : ((Cert.Spec.rowOf (((cfg1.win 6).blk t).view.emb (ix2 p (0 : Fin 1)))) : Fin 500000).val = t.val * 10000 + p.val := by
    show win1_6.index t (0 : Fin 2) * 10000 + 1 * p.val = _
    rw [e0]; omega
  refine score_row1 (iblk1 V c 0 t) (iblk1 V c 1 t) (iblk1 V c 2 t) (iblk1 V c 4 t) (iblk1 V c 3 t) (iblk1 V c 5 t)
    (V c main_v13) (V c main_v15) (V c main_v19) (V c main_v23) (V c main_v21) (V c main_v24) p
    (((cfg1.win 6).blk t).view.emb (ix2 p (0 : Fin 1))) ?_ ?_ ?_ ?_ ?_ ?_
  · exact fun k => src_block1 V c t (ix2 p k) _ hrow rfl
  · exact fun k => dst_block1 V c t (ix2 p k) _ hrow rfl
  · exact fun k j => wcat_block1 V c t (ix2 k j)
  · exact fun j => bsum_block1 V c t (ix2 (0 : Fin 1) j)
  · exact fun j => wfin_block1 V c t (ix2 j (0 : Fin 1))
  · exact bfin_block1 V c t (ix2 (0 : Fin 1) (0 : Fin 1))

/-- An edge's entry is in point t's block iff its row is among the 10000 rows of that block. -/
theorem mem_block1 (t : Fin cfg1.N) (i : S500000x1.Idx) :
    i ∈ ((cfg1.win 6).blk t).view.set ↔ ∀ a : Fin 2, win1_6.index t a * S10000x1.size a ≤ (i a).val ∧ (i a).val < win1_6.index t a * S10000x1.size a + S10000x1.size a := by
  show i ∈ ((View.whole main_v26).slice (win1_6.rect t)).set ↔ _
  rw [View.set_slice_whole, Rect.mem_set_unit]
  exact Iff.rfl

/-- Every edge is in some point's block: row r is in block r / 10000. -/
theorem cover1 (i : S500000x1.Idx) :
    ∃ t : Fin cfg1.N, (cfg1.win 6).flush t = true ∧ i ∈ ((cfg1.win 6).blk t).view.set := by
  have hi0 : (i 0).val < 500000 := (i 0).isLt
  have hi1 : (i 1).val < 1 := (i 1).isLt
  have hN : cfg1.N = 50 := N_1
  refine ⟨⟨(i 0).val / 10000, by rw [hN]; omega⟩, flush1_6 _, ?_⟩
  obtain ⟨-, -, -, -, -, -, -, -, -, -, -, -, e0, e1⟩ := block_indices1 ⟨(i 0).val / 10000, by rw [hN]; omega⟩
  rw [mem_block1]
  intro a
  match a with
  | ⟨0, _⟩ =>
    show win1_6.index _ (0 : Fin 2) * 10000 ≤ (i 0).val ∧ (i 0).val < win1_6.index _ (0 : Fin 2) * 10000 + 10000
    rw [e0]
    show (i 0).val / 10000 * 10000 ≤ (i 0).val ∧ (i 0).val < (i 0).val / 10000 * 10000 + 10000
    omega
  | ⟨1, _⟩ =>
    show win1_6.index _ (1 : Fin 2) * 1 ≤ (i 1).val ∧ (i 1).val < win1_6.index _ (1 : Fin 2) * 1 + 1
    rw [e1]
    omega

/-- After the launch the score array holds the score of every edge. -/
theorem arr1 (c : Dev nD) :
    (dat1 (F := Ideal) V c).arrAt 6 cfg1.N
      = Cert.Spec.scoreArrK (V c main_v13) (V c main_v15) (V c main_v19) (V c main_v23) (V c main_v21) (V c main_v24) :=
  (dat1 (F := Ideal) V c).arrAt_eq_of_cover 6 _ (fun t _ => flushed1 V c t) cover1

end Cert.KernelIdeal.Blocks

end
-- ==== Proof.KernelValue.lean ====
/-
  The kernel program's result as a function of its arguments.

  The closing host operation joins the two launches' output arrays. Each launch's output array is, row by row, the
  joined-arrangement score of the gathered embeddings it was given; the four parameter arrays are re-laid copies of
  the model's parameters, so that score is the link score of the specification. With every index in range the take
  of rows is the plain gather at the wrapped indices.
-/
import proofs.«426056_j26843545600130_2_alg».proof.Proof.Gen.KernelIdeal.Frame
import proofs.«426056_j26843545600130_2_alg».proof.Proof.Spec
import proofs.«426056_j26843545600130_2_alg».proof.Proof.Params
import proofs.«426056_j26843545600130_2_alg».proof.Proof.LibTakeWrap
import proofs.«426056_j26843545600130_2_alg».proof.Proof.KernelHostDefs
import proofs.«426056_j26843545600130_2_alg».proof.Proof.KernelHostA
import proofs.«426056_j26843545600130_2_alg».proof.Proof.KernelHostB
import proofs.«426056_j26843545600130_2_alg».proof.Proof.KernelHostP
import proofs.«426056_j26843545600130_2_alg».proof.Proof.KernelBlocks
import Idealize.ShloMosaic.Lib.StableHlo.Run

noncomputable section

namespace Cert.KernelIdeal.ValueK

open Cert.KernelIdeal Cert.KernelIdeal.Gen Cert.KernelIdeal.HostV
open Idealize.ShloMosaic Idealize.ShloMosaic.TcCoe Idealize.SL.Sem Idealize.ShloMosaic.StableHlo Idealize.ShloMosaic.ValueIdx

/-- With every index in range, wrapped or not, the take of rows is the gather at the wrapped indices. -/
theorem takeF_eq (z : FVec Ideal S100000x256 .f32) (idx : IVec S500000 32)
    (h : ∀ r, -100000 ≤ (idx r).toInt ∧ (idx r).toInt < 100000) : takeF (F := Ideal) z idx = gatherF (F := Ideal) z idx := by
  unfold takeF gatherF colI wrapI
  exact Cert.LibTakeWrap.take_rows_wrap_eq (R := 500000) (N := 100000) (C := 256) (s := S100000x256) (by norm_num) idx
    (fun r => by simpa using h r) gather_S100000x256_S500000x1_S500000x256_1_0_n_n_0_1_1256 z _
    bcast_S_S500000 bcast_S_S500000 bcast_S500000_S500000x1_0 bcast_S_S500000x1 bcast_S1_S1x1_1 bcast_S1x1_S500000x1_0_1
    reducesTo_S500000x1_S500000_d1 h_S_ bcast_S500000_S500000x256_0

/-- Every entry of an index row is an entry of the index array. -/
theorem idxRow0_range (a : IVec S2x500000 32) (h : ∀ i, -100000 ≤ (a i).toInt ∧ (a i).toInt < 100000) (r : S500000.Idx) :
    -100000 ≤ (idxRow0 a r).toInt ∧ (idxRow0 a r).toInt < 100000 := by
  obtain ⟨i, hi⟩ : ∃ i, idxRow0 a r = a i := ⟨_, rfl⟩
  rw [hi]; exact h i
theorem idxRow1_range (a : IVec S2x500000 32) (h : ∀ i, -100000 ≤ (a i).toInt ∧ (a i).toInt < 100000) (r : S500000.Idx) :
    -100000 ≤ (idxRow1 a r).toInt ∧ (idxRow1 a r).toInt < 100000 := by
  obtain ⟨i, hi⟩ : ∃ i, idxRow1 a r = a i := ⟨_, rfl⟩
  rw [hi]; exact h i

variable (m : (ℓ : Loc nD τ sig) → Buf (Elt Ideal) ℓ) (ρ : Dev nD → PrngReg)

/-- The joined-arrangement score over the parameter arrays the launches receive is the link score over the model's
    parameters. -/
theorem score_params (c : Dev nD) (x0 x1 : FVec Ideal S500000x256 .f32) :
    Cert.Spec.scoreArrK x0 x1 (V9 m ρ c main_v19) (V9 m ρ c main_v23) (V9 m ρ c main_v21) (V9 m ρ c main_v24)
      = Cert.Spec.scoreArr x0 x1 (m ((c.tc : Thread nD τ).loc main_arg4)) (m ((c.tc : Thread nD τ).loc main_arg6))
          (m ((c.tc : Thread nD τ).loc main_arg5)) (m ((c.tc : Thread nD τ).loc main_arg7))
          (m ((c.tc : Thread nD τ).loc main_arg8)) (m ((c.tc : Thread nD τ).loc main_arg9)) := by
  rw [V9_v19, V9_v23, V9_v21, V9_v24]
  refine Cert.Spec.scoreArrK_eq x0 x1 _ _ _ _ _ _ _ _ _ _ (fun k j => ?_) (fun j => ?_) (fun j => ?_) ?_
  · exact Cert.Params.stacked_apply _ _ transposes_S256x256_S256x256_1_0 concatenates_S256x256_S256x256_S512x256_d0 k j
  · exact Cert.Params.bias_row_apply _ _ shapeCasts_S256_S1x256 j
  · exact Cert.Params.final_col_apply _ transposes_S1x256_S256x1_1_0 j
  · exact Cert.Params.final_bias_apply _ shapeCasts_S1_S1x1

/-- At the second launch's entry every array it reads holds what it held at the first launch's entry. -/
theorem V10_v13 (c : Dev nD) : V10 m ρ c main_v13 = V9 m ρ c main_v13 := W10_of_ne m ρ c main_v13 (by decide)
theorem V10_v15 (c : Dev nD) : V10 m ρ c main_v15 = V9 m ρ c main_v15 := W10_of_ne m ρ c main_v15 (by decide)
theorem V10_v19 (c : Dev nD) : V10 m ρ c main_v19 = V9 m ρ c main_v19 :=
  (W10_arr m ρ c 2).trans (((dat0 (V9 m ρ) c).arrAt_in 2 rfl cfg0.N).trans (A_eq0 (V9 m ρ) c 2))
theorem V10_v21 (c : Dev nD) : V10 m ρ c main_v21 = V9 m ρ c main_v21 :=
  (W10_arr m ρ c 3).trans (((dat0 (V9 m ρ) c).arrAt_in 3 rfl cfg0.N).trans (A_eq0 (V9 m ρ) c 3))
theorem V10_v23 (c : Dev nD) : V10 m ρ c main_v23 = V9 m ρ c main_v23 :=
  (W10_arr m ρ c 4).trans (((dat0 (V9 m ρ) c).arrAt_in 4 rfl cfg0.N).trans (A_eq0 (V9 m ρ) c 4))
theorem V10_v24 (c : Dev nD) : V10 m ρ c main_v24 = V9 m ρ c main_v24 :=
  (W10_arr m ρ c 5).trans (((dat0 (V9 m ρ) c).arrAt_in 5 rfl cfg0.N).trans (A_eq0 (V9 m ρ) c 5))

/-- The first launch's output array after the run. -/
theorem out_a (c : Dev nD) (h2 : ∀ i, -100000 ≤ ((m ((c.tc : Thread nD τ).loc main_arg2) : IVec S2x500000 32) i).toInt ∧ ((m ((c.tc : Thread nD τ).loc main_arg2) : IVec S2x500000 32) i).toInt < 100000) :
    W11 m ρ c (Proc.devRef .tc main_v25)
      = Cert.Spec.scoreArr (gatherF (F := Ideal) (m ((c.tc : Thread nD τ).loc main_arg0)) (idxRow0 (m ((c.tc : Thread nD τ).loc main_arg2))))
          (gatherF (F := Ideal) (m ((c.tc : Thread nD τ).loc main_arg1)) (idxRow1 (m ((c.tc : Thread nD τ).loc main_arg2))))
          (m ((c.tc : Thread nD τ).loc main_arg4)) (m ((c.tc : Thread nD τ).loc main_arg6))
          (m ((c.tc : Thread nD τ).loc main_arg5)) (m ((c.tc : Thread nD τ).loc main_arg7))
          (m ((c.tc : Thread nD τ).loc main_arg8)) (m ((c.tc : Thread nD τ).loc main_arg9)) := by
  rw [W11_of_ne m ρ c main_v25 (by decide)]
  refine ((W10_arr m ρ c 6).trans (Cert.KernelIdeal.Blocks.arr0 (V9 m ρ) c)).trans ?_
  rw [V9_v9, V9_v11, takeF_eq _ _ (idxRow0_range _ h2), takeF_eq _ _ (idxRow1_range _ h2)]
  exact score_params m ρ c _ _

/-- The second launch's output array after the run. -/
theorem out_b (c : Dev nD) (h3 : ∀ i, -100000 ≤ ((m ((c.tc : Thread nD τ).loc main_arg3) : IVec S2x500000 32) i).toInt ∧ ((m ((c.tc : Thread nD τ).loc main_arg3) : IVec S2x500000 32) i).toInt < 100000) :
    W11 m ρ c (Proc.devRef .tc main_v26)
      = Cert.Spec.scoreArr (gatherF (F := Ideal) (m ((c.tc : Thread nD τ).loc main_arg1)) (idxRow0 (m ((c.tc : Thread nD τ).loc main_arg3))))
          (gatherF (F := Ideal) (m ((c.tc : Thread nD τ).loc main_arg0)) (idxRow1 (m ((c.tc : Thread nD τ).loc main_arg3))))
          (m ((c.tc : Thread nD τ).loc main_arg4)) (m ((c.tc : Thread nD τ).loc main_arg6))
          (m ((c.tc : Thread nD τ).loc main_arg5)) (m ((c.tc : Thread nD τ).loc main_arg7))
          (m ((c.tc : Thread nD τ).loc main_arg8)) (m ((c.tc : Thread nD τ).loc main_arg9)) := by
  refine ((W11_arr m ρ c 6).trans (Cert.KernelIdeal.Blocks.arr1 (V10 m ρ) c)).trans ?_
  rw [V10_v13, V10_v15, V10_v19, V10_v21, V10_v23, V10_v24, V9_v13, V9_v15,
    takeF_eq _ _ (idxRow0_range _ h3), takeF_eq _ _ (idxRow1_range _ h3)]
  exact score_params m ρ c _ _

/-- The link scores of both edge lists, the first list's 500000 rows above the second's: what the program returns. -/
def resK (c : Dev nD) : FVec Ideal S1000000x1 .f32 :=
  concatenate S1000000x1 0
    [⟨S500000x1, Cert.Spec.scoreArr (gatherF (F := Ideal) (m ((c.tc : Thread nD τ).loc main_arg0)) (idxRow0 (m ((c.tc : Thread nD τ).loc main_arg2))))
        (gatherF (F := Ideal) (m ((c.tc : Thread nD τ).loc main_arg1)) (idxRow1 (m ((c.tc : Thread nD τ).loc main_arg2))))
        (m ((c.tc : Thread nD τ).loc main_arg4)) (m ((c.tc : Thread nD τ).loc main_arg6))
        (m ((c.tc : Thread nD τ).loc main_arg5)) (m ((c.tc : Thread nD τ).loc main_arg7))
        (m ((c.tc : Thread nD τ).loc main_arg8)) (m ((c.tc : Thread nD τ).loc main_arg9))⟩,
     ⟨S500000x1, Cert.Spec.scoreArr (gatherF (F := Ideal) (m ((c.tc : Thread nD τ).loc main_arg1)) (idxRow0 (m ((c.tc : Thread nD τ).loc main_arg3))))
        (gatherF (F := Ideal) (m ((c.tc : Thread nD τ).loc main_arg0)) (idxRow1 (m ((c.tc : Thread nD τ).loc main_arg3))))
        (m ((c.tc : Thread nD τ).loc main_arg4)) (m ((c.tc : Thread nD τ).loc main_arg6))
        (m ((c.tc : Thread nD τ).loc main_arg5)) (m ((c.tc : Thread nD τ).loc main_arg7))
        (m ((c.tc : Thread nD τ).loc main_arg8)) (m ((c.tc : Thread nD τ).loc main_arg9))⟩]
    concatenates_S500000x1_S500000x1_S1000000x1_d0

/-- The result buffer after the run holds the link scores of both edge lists. -/
theorem result_eq (c : Dev nD)
    (h2 : ∀ i, -100000 ≤ ((m ((c.tc : Thread nD τ).loc main_arg2) : IVec S2x500000 32) i).toInt ∧ ((m ((c.tc : Thread nD τ).loc main_arg2) : IVec S2x500000 32) i).toInt < 100000)
    (h3 : ∀ i, -100000 ≤ ((m ((c.tc : Thread nD τ).loc main_arg3) : IVec S2x500000 32) i).toInt ∧ ((m ((c.tc : Thread nD τ).loc main_arg3) : IVec S2x500000 32) i).toInt < 100000) :
    W12 m ρ c (Proc.devRef .tc main_v27) = resK m c := by
  unfold resK
  rw [← out_a m ρ c h2, ← out_b m ρ c h3]
  dsimp only [W12, hostOps2]
  after_results

end Cert.KernelIdeal.ValueK

end
-- ==== Proof.RefValue.lean ====
/-
  The reference program computes the link scores.

  Each of the reference's two halves is, row by row, the score of the specification: two products of a gathered
  embedding row with a transposed weight matrix, the two biases added in the order the program adds them, the
  maximum with zero, the product with the final weights as a column, the final bias, and then
  1 / (1 + e^(−x)), which on the extended reals is the logistic function by definition. The arrays of gathered
  embeddings are left as they are: the specification takes them as its first two arguments.
-/
import proofs.«426056_j26843545600130_2_alg».proof.Proof.Gen.ReferenceIdeal.Read
import proofs.«426056_j26843545600130_2_alg».proof.Proof.Spec

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-- The pattern 0x3F800000 denotes the number one. -/
theorem ofBits_one_f32 : Ideal.ofBits .f32 0x3F800000#32 = 1 := by
  simp [Ideal.ofBits, Ideal.ieee, -EReal.coe_mul]; norm_num

/-- 1 / (1 + e^(−x)), spelt with the host's operations and the pattern of one, is the logistic function. -/
theorem logistic_spelt (x : EReal) :
    FloatOps.hostDivf (F := Ideal) (φ := .f32) (FloatOps.ofBits (F := Ideal) .f32 0x3F800000#32)
      (FloatOps.addf (F := Ideal) (φ := .f32) (FloatOps.ofBits (F := Ideal) .f32 0x3F800000#32)
        (FloatOps.hostUnary (F := Ideal) (φ := .f32) .exp (FloatOps.hostNegf (F := Ideal) (φ := .f32) x)))
      = Ideal.logistic x := by
  show Ideal.div (Ideal.ofBits .f32 0x3F800000#32) (Ideal.ofBits .f32 0x3F800000#32 + Ideal.exp (-x)) = _
  rw [ofBits_one_f32]
  rfl

/-! ## Edge type a -/

section A

variable (x0 x1 : (⟨S100000x256, .f32⟩ : BufTy).Contents (Elt Ideal)) (x2 : (⟨S2x500000, .i32⟩ : BufTy).Contents (Elt Ideal))
  (x4 : (⟨S256x256, .f32⟩ : BufTy).Contents (Elt Ideal)) (x5 : (⟨S256, .f32⟩ : BufTy).Contents (Elt Ideal))
  (x6 : (⟨S256x256, .f32⟩ : BufTy).Contents (Elt Ideal)) (x7 : (⟨S256, .f32⟩ : BufTy).Contents (Elt Ideal))
  (x8 : (⟨S1x256, .f32⟩ : BufTy).Contents (Elt Ideal)) (x9 : (⟨S1, .f32⟩ : BufTy).Contents (Elt Ideal))

/-- Entry [p, j] of the source product: row p of the gathered source embeddings against row j of W_src. -/
theorem srcDotA (p : Fin 500000) (j : Fin 256) :
    Read.val_main_v19 (F := Ideal) x0 x2 x4 (ix2 p j)
      = ∑ k : Fin 256, Read.val_main_v8 (F := Ideal) x0 x2 (ix2 p k) * x4 (ix2 j k) := by
  rw [Read.val_main_v19_apply]
  refine Finset.sum_congr rfl fun k _ => ?_
  rw [Read.val_main_v18_apply]
  refine congrArg₂ (· * ·) (congrArg _ (funext fun a => ?_)) (congrArg _ (funext fun a => ?_))
  · match a with
    | ⟨0, _⟩ => rfl
    | ⟨1, _⟩ => rfl
  · match a with
    | ⟨0, _⟩ => rfl
    | ⟨1, _⟩ => rfl

/-- Entry [p, j] of the destination product: row p of the gathered destination embeddings against row j of W_dst. -/
theorem dstDotA (p : Fin 500000) (j : Fin 256) :
    Read.val_main_v24 (F := Ideal) x1 x2 x6 (ix2 p j)
      = ∑ k : Fin 256, Read.val_main_v17 (F := Ideal) x1 x2 (ix2 p k) * x6 (ix2 j k) := by
  rw [Read.val_main_v24_apply]
  refine Finset.sum_congr rfl fun k _ => ?_
  rw [Read.val_main_v23_apply]
  refine congrArg₂ (· * ·) (congrArg _ (funext fun a => ?_)) (congrArg _ (funext fun a => ?_))
  · match a with
    | ⟨0, _⟩ => rfl
    | ⟨1, _⟩ => rfl
  · match a with
    | ⟨0, _⟩ => rfl
    | ⟨1, _⟩ => rfl

/-- The source bias spread over the rows, at [p, j]. -/
theorem srcBiasA (p : Fin 500000) (j : Fin 256) :
    Read.val_main_v21 (F := Ideal) x5 (ix2 p j) = x5 (ix1 j) := by
  rw [Read.val_main_v21_apply, Read.val_main_v20_apply]
  refine congrArg _ (funext fun a => ?_)
  match a with
  | ⟨0, _⟩ => rfl

/-- The destination bias spread over the rows, at [p, j]. -/
theorem dstBiasA (p : Fin 500000) (j : Fin 256) :
    Read.val_main_v27 (F := Ideal) x7 (ix2 p j) = x7 (ix1 j) := by
  rw [Read.val_main_v27_apply, Read.val_main_v26_apply]
  refine congrArg _ (funext fun a => ?_)
  match a with
  | ⟨0, _⟩ => rfl

/-- Hidden unit j of row p after the maximum with zero. -/
theorem hiddenA (p : Fin 500000) (j : Fin 256) :
    Read.val_main_v29 (F := Ideal) x0 x1 x2 x4 x5 x6 x7 (ix2 p j)
      = max ((((∑ k : Fin 256, Read.val_main_v8 (F := Ideal) x0 x2 (ix2 p k) * x4 (ix2 j k)) + x5 (ix1 j))
          + ∑ k : Fin 256, Read.val_main_v17 (F := Ideal) x1 x2 (ix2 p k) * x6 (ix2 j k)) + x7 (ix1 j)) 0 := by
  rw [Read.val_main_v29_apply, Read.val_main_v28_apply, Read.val_main_v25_apply, Read.val_main_v22_apply,
    Read.val_main_call0_v0_apply, Read.val_main_call0_cst_apply, srcDotA, dstDotA, srcBiasA, dstBiasA]
  show max _ (Ideal.ofBits .f32 0x00000000#32) = _
  rw [Ideal.ofBits_zero_f32]
  rfl

/-- The number the program takes the logistic function of, at row p. -/
theorem logitA (p : Fin 500000) :
    Read.val_main_v34 (F := Ideal) x0 x1 x2 x4 x5 x6 x7 x8 x9 (ix2 p 0)
      = (∑ j : Fin 256, max ((((∑ k : Fin 256, Read.val_main_v8 (F := Ideal) x0 x2 (ix2 p k) * x4 (ix2 j k)) + x5 (ix1 j))
          + ∑ k : Fin 256, Read.val_main_v17 (F := Ideal) x1 x2 (ix2 p k) * x6 (ix2 j k)) + x7 (ix1 j)) 0 * x8 (ix2 0 j))
        + x9 (ix1 0) := by
  rw [Read.val_main_v34_apply, Read.val_main_v31_apply, Read.val_main_v33_apply, Read.val_main_v32_apply]
  refine congrArg₂ (· + ·) (Finset.sum_congr rfl fun j _ => ?_) (congrArg _ (funext fun a => ?_))
  · rw [Read.val_main_v30_apply, ← hiddenA]
    refine congrArg₂ (· * ·) (congrArg _ (funext fun a => ?_)) (congrArg _ (funext fun a => ?_))
    · match a with
      | ⟨0, _⟩ => rfl
      | ⟨1, _⟩ => rfl
    · match a with
      | ⟨0, _⟩ => rfl
      | ⟨1, _⟩ => rfl
  · match a with
    | ⟨0, _⟩ => rfl

/-- The first half of the reference's result is the array of scores of the edges of type a. -/
theorem pieceA :
    Read.val_main_v40 (F := Ideal) x0 x1 x2 x4 x5 x6 x7 x8 x9
      = Cert.Spec.scoreArr (Read.val_main_v8 (F := Ideal) x0 x2) (Read.val_main_v17 (F := Ideal) x1 x2) x4 x6 x5 x7 x8 x9 := by
  funext i
  obtain ⟨p, q, rfl⟩ : ∃ (p : Fin 500000) (q : Fin 1), i = ix2 p q := ⟨i 0, i 1, eq_ix2 i⟩
  obtain rfl : q = 0 := Subsingleton.elim _ _
  rw [Read.val_main_v40_apply, Read.val_main_v39_apply, Read.val_main_cst_3_apply, Read.val_main_v38_apply,
    Read.val_main_v37_apply, Read.val_main_cst_apply, Read.val_main_v36_apply, Read.val_main_v35_apply, logitA]
  exact logistic_spelt _

end A

/-! ## Edge type b

  The second half of the program is the first half run on the other index array with the two embedding tables
  exchanged: operation for operation the same term, so everything said of the first half holds of it. -/

section B

variable (x0 x1 : (⟨S100000x256, .f32⟩ : BufTy).Contents (Elt Ideal)) (x3 : (⟨S2x500000, .i32⟩ : BufTy).Contents (Elt Ideal))
  (x4 : (⟨S256x256, .f32⟩ : BufTy).Contents (Elt Ideal)) (x5 : (⟨S256, .f32⟩ : BufTy).Contents (Elt Ideal))
  (x6 : (⟨S256x256, .f32⟩ : BufTy).Contents (Elt Ideal)) (x7 : (⟨S256, .f32⟩ : BufTy).Contents (Elt Ideal))
  (x8 : (⟨S1x256, .f32⟩ : BufTy).Contents (Elt Ideal)) (x9 : (⟨S1, .f32⟩ : BufTy).Contents (Elt Ideal))

/-- The gathered source embeddings of type b are the first gather of the first half at the exchanged arguments. -/
theorem srcGatherB : Read.val_main_v49 (F := Ideal) x1 x3 = Read.val_main_v8 (F := Ideal) x1 x3 := rfl

/-- The gathered destination embeddings of type b are the second gather of the first half at the exchanged arguments. -/
theorem dstGatherB : Read.val_main_v58 (F := Ideal) x0 x3 = Read.val_main_v17 (F := Ideal) x0 x3 := rfl

/-- The second half is the first half at the exchanged arguments. -/
theorem halfB_eq_halfA :
    Read.val_main_v81 (F := Ideal) x0 x1 x3 x4 x5 x6 x7 x8 x9 = Read.val_main_v40 (F := Ideal) x1 x0 x3 x4 x5 x6 x7 x8 x9 := rfl

/-- The second half of the reference's result is the array of scores of the edges of type b. -/
theorem pieceB :
    Read.val_main_v81 (F := Ideal) x0 x1 x3 x4 x5 x6 x7 x8 x9
      = Cert.Spec.scoreArr (Read.val_main_v49 (F := Ideal) x1 x3) (Read.val_main_v58 (F := Ideal) x0 x3) x4 x6 x5 x7 x8 x9 := by
  rw [halfB_eq_halfA, srcGatherB, dstGatherB]
  exact pieceA x1 x0 x3 x4 x5 x6 x7 x8 x9

end B

/-! ## The whole result -/

/-- The reference's result is the scores of the edges of type a followed by the scores of the edges of type b. -/
theorem result_eq (m : (ℓ : Loc nD τ sig) → Buf (Elt Ideal) ℓ) (c : Dev nD) :
    Cert.ReferenceIdeal.Value.res_main_v82 (F := Ideal) m c
      = concatenate S1000000x1 0
          [⟨S500000x1, Cert.Spec.scoreArr
              (Read.val_main_v8 (F := Ideal) (m ((c.tc : Thread nD τ).loc main_arg0)) (m ((c.tc : Thread nD τ).loc main_arg2)))
              (Read.val_main_v17 (F := Ideal) (m ((c.tc : Thread nD τ).loc main_arg1)) (m ((c.tc : Thread nD τ).loc main_arg2)))
              (m ((c.tc : Thread nD τ).loc main_arg4)) (m ((c.tc : Thread nD τ).loc main_arg6))
              (m ((c.tc : Thread nD τ).loc main_arg5)) (m ((c.tc : Thread nD τ).loc main_arg7))
              (m ((c.tc : Thread nD τ).loc main_arg8)) (m ((c.tc : Thread nD τ).loc main_arg9))⟩,
           ⟨S500000x1, Cert.Spec.scoreArr
              (Read.val_main_v49 (F := Ideal) (m ((c.tc : Thread nD τ).loc main_arg1)) (m ((c.tc : Thread nD τ).loc main_arg3)))
              (Read.val_main_v58 (F := Ideal) (m ((c.tc : Thread nD τ).loc main_arg0)) (m ((c.tc : Thread nD τ).loc main_arg3)))
              (m ((c.tc : Thread nD τ).loc main_arg4)) (m ((c.tc : Thread nD τ).loc main_arg6))
              (m ((c.tc : Thread nD τ).loc main_arg5)) (m ((c.tc : Thread nD τ).loc main_arg7))
              (m ((c.tc : Thread nD τ).loc main_arg8)) (m ((c.tc : Thread nD τ).loc main_arg9))⟩]
          concatenates_S500000x1_S500000x1_S1000000x1_d0 := by
  rw [Read.val_main_v82_eq]
  unfold Read.val_main_v82
  rw [pieceA, pieceB]

end Cert.ReferenceIdeal.RefValue

end
-- ==== Proof.PreRange.lean ====
/-
  The index ranges stated by the printed precondition.

  The precondition is a conjunction (a chain of one-bit `and`s) of ten scalar tests, one per argument. Its last two
  say, of each of the two integer index arrays, that every entry a satisfies a ≥ −100000 and a < 100000 as a signed
  32-bit integer: the entrywise conjunction of the two signed compares, reduced by `and` over both axes. (The constant
  4294867296 is 2³² − 100000, the word whose signed value is −100000.) From "the precondition is 1" we read back: both
  of those reductions are 1, hence every entry of their operand is 1, hence both compares hold at every entry.
-/
import proofs.«426056_j26843545600130_2_alg».proof.Pre_finite_inputs
import Idealize.ShloMosaic.Lib.ReduceAll
import Idealize.ShloMosaic.Lib.ValueIdx
import Idealize.ShloMosaic.Lib.StableHlo.Predicate

namespace Cert.PreRange

open Idealize.ShloMosaic
open Idealize.ShloMosaic.StableHlo.Predicate
open Cert.Pre_finite_inputs

/-- The scalar shape has exactly one index. -/
instance : Subsingleton S_.Idx := ⟨fun a b => funext fun d => d.elim0⟩

/-- ONE ENTRY. A word that passes the signed test "≥ −100000" (against the word 2³² − 100000) and the signed test
    "< 100000" has its signed value in [−100000, 100000). -/
theorem word_range (a : BitVec 32)
    (h : IntOp.andi (IntOp.cmpi .sge a 4294867296#32) (IntOp.cmpi .slt a 100000#32) = 1#1) :
    -100000 ≤ a.toInt ∧ a.toInt < 100000 := by
  obtain ⟨h1, h2⟩ := IntOp.andi_eq_one.1 h
  unfold IntOp.cmpi at h1 h2
  rw [ofBool_eq_one_iff] at h1 h2
  simp only [BitVec.sle, BitVec.slt, decide_eq_true_eq] at h1 h2
  have e1 : (4294867296#32 : BitVec 32).toInt = -100000 := by decide
  have e2 : (100000#32 : BitVec 32).toInt = 100000 := by decide
  rw [e1] at h1; rw [e2] at h2
  exact ⟨h1, h2⟩

/-- THE INDEX RANGES. If the printed precondition is 1 then every entry of each of the two index arrays lies in
    [−100000, 100000) as a signed integer: the precondition's value at its one index is the `and` of ten tests, the last
    two of which are the all-entries reductions of the range test on the third and on the fourth argument. -/
theorem range_of_pre [Cert.Pre_finite_inputs.Facts] {F : FTy → Type} [FloatOps F]
    (a0 a1 : FVec F S100000x256 .f32) (a2 a3 : IVec S2x500000 32) (a4 : FVec F S256x256 .f32) (a5 : FVec F S256 .f32)
    (a6 : FVec F S256x256 .f32) (a7 : FVec F S256 .f32) (a8 : FVec F S1x256 .f32) (a9 : FVec F S1 .f32)
    (h : Cert.Pre_finite_inputs.fn (F := F) a0 a1 a2 a3 a4 a5 a6 a7 a8 a9 = fun _ => 1#1) :
    (∀ i, -100000 ≤ (a2 i).toInt ∧ (a2 i).toInt < 100000) ∧ (∀ i, -100000 ≤ (a3 i).toInt ∧ (a3 i).toInt < 100000) := by
  -- the precondition at its one index, with the printed chain of lets unfolded
  have h0 := congrFun h ValueIdx.ix0
  dsimp only [fn, fn_part1, fn_part2, fn_part3] at h0
  -- the outermost `and`: (the first nine tests) and (the range test of the fourth argument)
  obtain ⟨hA, hB⟩ := IntOp.andi_eq_one.1 h0
  -- the next `and`: (the first eight tests) and (the range test of the third argument)
  obtain ⟨_, hA2⟩ := IntOp.andi_eq_one.1 hA
  exact ⟨fun i => word_range (a2 i) (Host.reduce_andi_all _ _ _ _ _ hA2 i),
         fun i => word_range (a3 i) (Host.reduce_andi_all _ _ _ _ _ hB i)⟩

end Cert.PreRange
-- ==== Proof.lean ====
/-
  The certificate of the link predictor: the kernel program (two row gathers per edge list, then one launch per edge
  list computing  σ(relu([src, dst] · wcat + bsum) · wfin + bfin)  block by block, the two score columns joined) against
  the reference  σ(relu(src · Wsᵀ + bs + dst · Wdᵀ + bd) · Wfᵀ + bf)  on both edge lists.

  Over the extended reals both programs return, row by row, the link score of the specification (Proof/Spec.lean) of
  the embeddings gathered at the wrapped indices: the kernel's joined product is the sum of the reference's two
  products, its summed bias their two biases, and addition of extended reals is associative and commutative, so no
  finiteness is used. The precondition's index range (every index at least −100000 and below 100000, the range in which
  the reference indexes inside the tables) is used once: it makes the kernel's fill value for out-of-table rows
  unreachable, so that its take of rows is the reference's gather.
-/
import proofs.«426056_j26843545600130_2_alg».proof.Defs
import proofs.«426056_j26843545600130_2_alg».proof.Proof.Gen.Kernel
import proofs.«426056_j26843545600130_2_alg».proof.Proof.Gen.Kernel.Skeleton
import proofs.«426056_j26843545600130_2_alg».proof.Proof.Gen.Kernel.Launch
import proofs.«426056_j26843545600130_2_alg».proof.Proof.Gen.Kernel.Points
import proofs.«426056_j26843545600130_2_alg».proof.Proof.Gen.Kernel.Frame
import proofs.«426056_j26843545600130_2_alg».proof.Proof.Gen.KernelIdeal
import proofs.«426056_j26843545600130_2_alg».proof.Proof.Gen.KernelIdeal.Skeleton
import proofs.«426056_j26843545600130_2_alg».proof.Proof.Gen.KernelIdeal.Launch
import proofs.«426056_j26843545600130_2_alg».proof.Proof.Gen.KernelIdeal.Points
import proofs.«426056_j26843545600130_2_alg».proof.Proof.Gen.KernelIdeal.Frame
import proofs.«426056_j26843545600130_2_alg».proof.Proof.Gen.ReferenceIdeal
import proofs.«426056_j26843545600130_2_alg».proof.Proof.Gen.ReferenceIdeal.Run
import proofs.«426056_j26843545600130_2_alg».proof.Proof.Gen.ReferenceIdeal.Read
import proofs.«426056_j26843545600130_2_alg».proof.Proof.Gen.Pre_finite_inputs
import proofs.«426056_j26843545600130_2_alg».proof.Proof.KernelRun
import proofs.«426056_j26843545600130_2_alg».proof.Proof.KernelValue
import proofs.«426056_j26843545600130_2_alg».proof.Proof.RefValue
import proofs.«426056_j26843545600130_2_alg».proof.Proof.PreRange
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the link scores of both edge lists: the
    kernel's run leaves them in its result buffer (Proof/KernelValue.lean, under the index range the precondition gives),
    the reference's run leaves the same arrays (Proof/RefValue.lean), and the two gathers are one term of the arguments. -/
theorem algebraic : Cert.algebraic_KernelIdeal_ReferenceIdeal := by
  intro m ρ m' ρ' hpre hagree
  have hr := fun c => Cert.PreRange.range_of_pre (F := Ideal) _ _ _ _ _ _ _ _ _ _ (hpre c)
  refine ⟨fun c => Cert.KernelIdeal.ValueK.resK m c, ?_, ?_⟩
  · exact (θ_run Cert.KernelIdeal.defs _ _).mono
      (fun r h c => ⟨(h c).1.trans (Cert.KernelIdeal.ValueK.result_eq m ρ c (hr c).1 (hr c).2), (h c).2⟩)
      (Cert.KernelIdeal.RunV.run_main m ρ)
  · refine (θ_run Cert.ReferenceIdeal.defs _ _).mono (fun r h c => ⟨(h c).1.trans ?_, (h c).2⟩)
      (Cert.ReferenceIdeal.Value.run (F := Ideal) m' ρ')
    rw [Cert.ReferenceIdeal.RefValue.result_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
